-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v31_0)) (v1 : (c : Dev Cert.KernelIdeal.nD) → Buf (Elt Ideal) ((c.tc : Thread Cert.KernelIdeal.nD Cert.KernelIdeal.τ).loc Cert.KernelIdeal.main_v31_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_0) = v0 c
          ∧ r.2.mem ((c.tc : Thread Cert.KernelIdeal.nD Cert.KernelIdeal.τ).loc Cert.KernelIdeal.main_v31_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x32 : Shape := ⟨2, ![16, 32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_

variable [Facts]

def fn_part3 {F : FTy → Type} [FloatOps F] (main_arg12 : FVec F S32x16 .f32) (main_arg13 : FVec F S16 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x16 .f32 := Host.absf main_arg12
  let main_cst_20 : FVec F S_ .f32 := constant S_ .f32 0x7F800000#32
  let main_v55 : FVec F S32x16 .f32 := broadcastInDim S32x16 ![] bcast_S_S32x16 main_cst_20
  let main_v56 : IVec S32x16 1 := cmpf .olt main_v54 main_v55
  let main_c_21 : IVec S_ 1 := constantI S_ 1 1#1
  let main_v57 : IVec S_ 1 := (fun x v => Host.reduce IntOp.andi x v reducesTo_S32x16_S_d0_1 h_S_) main_v56 main_c_21
  let main_v58 : IVec S_ 1 := andi main_v53 main_v57
  let main_v59 : FVec F S16 .f32 := Host.absf main_arg13
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  main_v63

def fn_part2 {F : FTy → Type} [FloatOps F] (main_arg8 : FVec F S32x16 .f32) (main_arg9 : FVec F S16 .f32) (main_arg10 : FVec F S16x32 .f32) (main_arg11 : FVec F S32 .f32) (main_arg12 : FVec F S32x16 .f32) (main_arg13 : FVec F S16 .f32) (main_v33 : IVec S_ 1) : IVec S_ 1 :=
  let main_v34 : FVec F S32x16 .f32 := Host.absf main_arg8
  let main_cst_12 : FVec F S_ .f32 := constant S_ .f32 0x7F800000#32
  let main_v35 : FVec F S32x16 .f32 := broadcastInDim S32x16 ![] bcast_S_S32x16 main_cst_12
  let main_v36 : IVec S32x16 1 := cmpf .olt main_v34 main_v35
  let main_c_13 : IVec S_ 1 := constantI S_ 1 1#1
  let main_v37 : IVec S_ 1 := (fun x v => Host.reduce IntOp.andi x v reducesTo_S32x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16x32 .f32 := Host.absf main_arg10
  let main_cst_16 : FVec F S_ .f32 := constant S_ .f32 0x7F800000#32
  let main_v45 : FVec F S16x32 .f32 := broadcastInDim S16x32 ![] bcast_S_S16x32 main_cst_16
  let main_v46 : IVec S16x32 1 := cmpf .olt main_v44 main_v45
  let main_c_17 : IVec S_ 1 := constantI S_ 1 1#1
  let main_v47 : IVec S_ 1 := (fun x v => Host.reduce IntOp.andi x v reducesTo_S16x32_S_d0_1 h_S_) main_v46 main_c_17
  let main_v48 : IVec S_ 1 := andi main_v43 main_v47
  let main_v49 : FVec F S32 .f32 := Host.absf main_arg11
  let main_cst_18 : FVec F S_ .f32 := constant S_ .f32 0x7F800000#32
  let main_v50 : FVec F S32 .f32 := broadcastInDim S32 ![] bcast_S_S32 main_cst_18
  fn_part3 (F := F) main_arg12 main_arg13 main_v48 main_v49 main_v50

def fn_part1 {F : FTy → Type} [FloatOps F] (main_arg5 : FVec F S16 .f32) (main_arg6 : FVec F S16x32 .f32) (main_arg7 : FVec F S32 .f32) (main_arg8 : FVec F S32x16 .f32) (main_arg9 : FVec F S16 .f32) (main_arg10 : FVec F S16x32 .f32) (main_arg11 : FVec F S32 .f32) (main_arg12 : FVec F S32x16 .f32) (main_arg13 : FVec F S16 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x32 .f32 := Host.absf main_arg6
  let main_cst_8 : FVec F S_ .f32 := constant S_ .f32 0x7F800000#32
  let main_v25 : FVec F S16x32 .f32 := broadcastInDim S16x32 ![] bcast_S_S16x32 main_cst_8
  let main_v26 : IVec S16x32 1 := cmpf .olt main_v24 main_v25
  let main_c_9 : IVec S_ 1 := constantI S_ 1 1#1
  let main_v27 : IVec S_ 1 := (fun x v => Host.reduce IntOp.andi x v reducesTo_S16x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x64 .f32) (main_arg1 : IVec S2x1600000 32) (main_arg2 : FVec F S64x32 .f32) (main_arg3 : FVec F S32 .f32) (main_arg4 : FVec F S32x16 .f32) (main_arg5 : FVec F S16 .f32) (main_arg6 : FVec F S16x32 .f32) (main_arg7 : FVec F S32 .f32) (main_arg8 : FVec F S32x16 .f32) (main_arg9 : FVec F S16 .f32) (main_arg10 : FVec F S16x32 .f32) (main_arg11 : FVec F S32 .f32) (main_arg12 : FVec F S32x16 .f32) (main_arg13 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x32 .f32 := Host.absf main_arg2
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x16 .f32 := Host.absf main_arg4
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg5 main_arg6 main_arg7 main_arg8 main_arg9 main_arg10 main_arg11 main_arg12 main_arg13 main_v13 main_v16
-- ==== Kernel.lean ====
abbrev S100000x64 : Shape := ⟨2, ![100000, 64]⟩
abbrev S2x1600000 : Shape := ⟨2, ![2, 1600000]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x32 : Shape := ⟨2, ![16, 32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x32 : Shape := ⟨2, ![1, 32]⟩
abbrev S1x16 : Shape := ⟨2, ![1, 16]⟩
abbrev S100000x16 : Shape := ⟨2, ![100000, 16]⟩
abbrev S10000x64 : Shape := ⟨2, ![10000, 64]⟩
abbrev S10000x16 : Shape := ⟨2, ![10000, 16]⟩
abbrev S10000x32 : Shape := ⟨2, ![10000, 32]⟩
abbrev S1600000x16 : Shape := ⟨2, ![1600000, 16]⟩

abbrev nBuf : Space → Nat
  | .hbm => 53
  | .vmem => 26
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S16x32, .f32⟩
  | .hbm, ⟨7, _⟩ => ⟨S32, .f32⟩
  | .hbm, ⟨8, _⟩ => ⟨S32x16, .f32⟩
  | .hbm, ⟨9, _⟩ => ⟨S16, .f32⟩
  | .hbm, ⟨10, _⟩ => ⟨S16x32, .f32⟩
  | .hbm, ⟨11, _⟩ => ⟨S32, .f32⟩
  | .hbm, ⟨12, _⟩ => ⟨S32x16, .f32⟩
  | .hbm, ⟨13, _⟩ => ⟨S16, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S_, .f32⟩
  | .hbm, ⟨28, _⟩ => ⟨S100000x64, .f32⟩
  | .hbm, ⟨29, _⟩ => ⟨S1600000x1, .i32⟩
  | .hbm, ⟨30, _⟩ => ⟨S100000x64, .f32⟩
  | .hbm, ⟨31, _⟩ => ⟨S1x32, .f32⟩
  | .hbm, ⟨32, _⟩ => ⟨S1x16, .f32⟩
  | .hbm, ⟨33, _⟩ => ⟨S100000x16, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x16, .f32⟩
  | .hbm, ⟨43, _⟩ => ⟨S_, .f32⟩
  | .hbm, ⟨44, _⟩ => ⟨S100000x16, .f32⟩
  | .hbm, ⟨45, _⟩ => ⟨S1600000x1, .i32⟩
  | .hbm, ⟨46, _⟩ => ⟨S100000x16, .f32⟩
  | .hbm, ⟨47, _⟩ => ⟨S1x32, .f32⟩
  | .hbm, ⟨48, _⟩ => ⟨S1x16, .f32⟩
  | .hbm, ⟨49, _⟩ => ⟨S1x32, .f32⟩
  | .hbm, ⟨50, _⟩ => ⟨S1x16, .f32⟩
  | .hbm, ⟨51, _⟩ => ⟨S100000x16, .f32⟩
  | .hbm, ⟨52, _⟩ => ⟨S100000x16, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x32, .f32⟩
  | .local _ .vmem, ⟨5, _⟩ => ⟨S1x32, .f32⟩
  | .local _ .vmem, ⟨6, _⟩ => ⟨S32x16, .f32⟩
  | .local _ .vmem, ⟨7, _⟩ => ⟨S1x16, .f32⟩
  | .local _ .vmem, ⟨8, _⟩ => ⟨S10000x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S10000x16, .f32⟩
  | .local _ .vmem, ⟨13, _⟩ => ⟨S10000x16, .f32⟩
  | .local _ .vmem, ⟨14, _⟩ => ⟨S16x32, .f32⟩
  | .local _ .vmem, ⟨15, _⟩ => ⟨S1x32, .f32⟩
  | .local _ .vmem, ⟨16, _⟩ => ⟨S32x16, .f32⟩
  | .local _ .vmem, ⟨17, _⟩ => ⟨S1x16, .f32⟩
  | .local _ .vmem, ⟨18, _⟩ => ⟨S16x32, .f32⟩
  | .local _ .vmem, ⟨19, _⟩ => ⟨S1x32, .f32⟩
  | .local _ .vmem, ⟨20, _⟩ => ⟨S32x16, .f32⟩
  | .local _ .vmem, ⟨21, _⟩ => ⟨S1x16, .f32⟩
  | .local _ .vmem, ⟨22, _⟩ => ⟨S10000x16, .f32⟩
  | .local _ .vmem, ⟨23, _⟩ => ⟨S10000x16, .f32⟩
  | .local _ .vmem, ⟨24, _⟩ => ⟨S10000x16, .f32⟩
  | .local _ .vmem, ⟨25, _⟩ => ⟨S10000x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_1 : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31_0 : Ref sig .tc := ⟨.hbm, 51, rfl⟩
abbrev main_v31_1 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg10_1 : Ref sig .tc := ⟨.vmem, 23, rfl⟩
abbrev cc1_stg11_0 : Ref sig .tc := ⟨.vmem, 24, rfl⟩
abbrev cc1_stg11_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem10_1 : DmaSem sig := 23
abbrev cc1_sem11_0 : DmaSem sig := 24
abbrev cc1_sem11_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S16x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S32x16 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x16 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S10000x16 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S10000x16 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S32_S1x32 : S32.ShapeCasts S1x32
  shapeCasts_S16_S1x16 : S16.ShapeCasts S1x16
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  bcast_S_S100000x16 : S_.BroadcastsInDim S100000x16 (![] : Fin 0 → Fin S100000x16.rank)
  shapeCasts_S10000x16_S10000x16 : S10000x16.ShapeCasts S10000x16
  inb_S16x32_S16x32_0_0 : ∀ a, (![0, 0] : Fin 2 → Nat) a + S16x32.size a ≤ S16x32.size a
  h_S16x32 : 0 < S16x32.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x32_S10000x32_1_0_0_1_n_n_wf : DotDims.WF S10000x64 S64x32 S10000x32 [1] [0] [0] [1] [] []
  dot_S10000x32_S32x16_S10000x16_1_0_0_1_n_n_wf : DotDims.WF S10000x32 S32x16 S10000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S10000x16_S16x32_S10000x32_1_0_0_1_n_n_wf : DotDims.WF S10000x16 S16x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x32.size a ≤ S64x32.size a
  hwx0_2 : ∀ i : grid0.Coords, EltTy.bits .f32 = 32 ∨ (Rect.block (s := S64x32) S64x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x16.size a ≤ S32x16.size a
  hwx0_4 : ∀ i : grid0.Coords, EltTy.bits .f32 = 32 ∨ (Rect.block (s := S32x16) S32x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x16.size a ≤ S100000x16.size a
  hwx0_6 : ∀ i : grid0.Coords, EltTy.bits .f32 = 32 ∨ (Rect.block (s := S100000x16) S10000x16.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S100000x16.size a
  hwx1_1 : ∀ i : grid1.Coords, EltTy.bits .f32 = 32 ∨ (Rect.block (s := S100000x16) S10000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x32.size a ≤ S16x32.size a
  hwx1_2 : ∀ i : grid1.Coords, EltTy.bits .f32 = 32 ∨ (Rect.block (s := S16x32) S16x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x16.size a ≤ S32x16.size a
  hwx1_4 : ∀ i : grid1.Coords, EltTy.bits .f32 = 32 ∨ (Rect.block (s := S32x16) S32x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x16.size a ≤ S1x16.size a
  hwx1_5 : ∀ i : grid1.Coords, EltTy.bits .f32 = 32 ∨ (Rect.block (s := S1x16) S1x16.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S16x32.size a ≤ S16x32.size a
  hwx1_6 : ∀ i : grid1.Coords, EltTy.bits .f32 = 32 ∨ (Rect.block (s := S16x32) S16x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x32.size a ≤ S1x32.size a
  hwx1_7 : ∀ i : grid1.Coords, EltTy.bits .f32 = 32 ∨ (Rect.block (s := S1x32) S1x32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S32x16.size a ≤ S32x16.size a
  hwx1_8 : ∀ i : grid1.Coords, EltTy.bits .f32 = 32 ∨ (Rect.block (s := S32x16) S32x16.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x16.size a ≤ S1x16.size a
  hwx1_9 : ∀ i : grid1.Coords, EltTy.bits .f32 = 32 ∨ (Rect.block (s := S1x16) S1x16.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S10000x16.size a ≤ S100000x16.size a
  hwx1_10 : ∀ i : grid1.Coords, EltTy.bits .f32 = 32 ∨ (Rect.block (s := S100000x16) S10000x16.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S10000x16.size a ≤ S100000x16.size a
  hwx1_11 : ∀ i : grid1.Coords, EltTy.bits .f32 = 32 ∨ (Rect.block (s := S100000x16) S10000x16.size (cc1_transform_11 i) (hinb1_11 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S10000x16_S16x32_S10000x32_1_0_0_1_n_n : DotDims S10000x16 S16x32 S10000x32 where
  lhsContracting := [1]
  rhsContracting := [0]
  lhsNonContracting := [0]
  rhsNonContracting := [1]
  lhsBatch := []
  rhsBatch := []
  wf := dot_S10000x16_S16x32_S10000x32_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S10000x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S10000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S16x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S32x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S16x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v29) S1x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg12) S32x16.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v30) S1x16.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v31_0) S10000x16.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v31_1) S10000x16.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x32 : Shape := ⟨2, ![16, 32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x32 : Shape := ⟨2, ![100000, 32]⟩
abbrev S1x32 : Shape := ⟨2, ![1, 32]⟩
abbrev S100000x16 : Shape := ⟨2, ![100000, 16]⟩
abbrev S1x16 : Shape := ⟨2, ![1, 16]⟩
abbrev S1600000x16 : Shape := ⟨2, ![1600000, 16]⟩

abbrev nBuf : Space → Nat
  | .hbm => 104
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S16x32, .f32⟩
  | .hbm, ⟨7, _⟩ => ⟨S32, .f32⟩
  | .hbm, ⟨8, _⟩ => ⟨S32x16, .f32⟩
  | .hbm, ⟨9, _⟩ => ⟨S16, .f32⟩
  | .hbm, ⟨10, _⟩ => ⟨S16x32, .f32⟩
  | .hbm, ⟨11, _⟩ => ⟨S32, .f32⟩
  | .hbm, ⟨12, _⟩ => ⟨S32x16, .f32⟩
  | .hbm, ⟨13, _⟩ => ⟨S16, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S_, .f32⟩
  | .hbm, ⟨28, _⟩ => ⟨S100000x64, .f32⟩
  | .hbm, ⟨29, _⟩ => ⟨S1600000x1, .i32⟩
  | .hbm, ⟨30, _⟩ => ⟨S100000x64, .f32⟩
  | .hbm, ⟨31, _⟩ => ⟨S100000x64, .f32⟩
  | .hbm, ⟨32, _⟩ => ⟨S100000x32, .f32⟩
  | .hbm, ⟨33, _⟩ => ⟨S1x32, .f32⟩
  | .hbm, ⟨34, _⟩ => ⟨S100000x32, .f32⟩
  | .hbm, ⟨35, _⟩ => ⟨S100000x32, .f32⟩
  | .hbm, ⟨36, _⟩ => ⟨S_, .f32⟩
  | .hbm, ⟨37, _⟩ => ⟨S100000x32, .f32⟩
  | .hbm, ⟨38, _⟩ => ⟨S100000x32, .f32⟩
  | .hbm, ⟨39, _⟩ => ⟨S100000x16, .f32⟩
  | .hbm, ⟨40, _⟩ => ⟨S1x16, .f32⟩
  | .hbm, ⟨41, _⟩ => ⟨S100000x16, .f32⟩
  | .hbm, ⟨42, _⟩ => ⟨S100000x16, .f32⟩
  | .hbm, ⟨43, _⟩ => ⟨S_, .f32⟩
  | .hbm, ⟨44, _⟩ => ⟨S100000x16, .f32⟩
  | .hbm, ⟨45, _⟩ => ⟨S100000x16, .f32⟩
  | .hbm, ⟨46, _⟩ => ⟨S1x1600000, .i32⟩
  | .hbm, ⟨47, _⟩ => ⟨S1600000, .i32⟩
  | .hbm, ⟨48, _⟩ => ⟨S1x1600000, .i32⟩
  | .hbm, ⟨49, _⟩ => ⟨S1600000, .i32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x16, .f32⟩
  | .hbm, ⟨59, _⟩ => ⟨S_, .f32⟩
  | .hbm, ⟨60, _⟩ => ⟨S100000x16, .f32⟩
  | .hbm, ⟨61, _⟩ => ⟨S1600000x1, .i32⟩
  | .hbm, ⟨62, _⟩ => ⟨S100000x16, .f32⟩
  | .hbm, ⟨63, _⟩ => ⟨S100000x16, .f32⟩
  | .hbm, ⟨64, _⟩ => ⟨S100000x32, .f32⟩
  | .hbm, ⟨65, _⟩ => ⟨S1x32, .f32⟩
  | .hbm, ⟨66, _⟩ => ⟨S100000x32, .f32⟩
  | .hbm, ⟨67, _⟩ => ⟨S100000x32, .f32⟩
  | .hbm, ⟨68, _⟩ => ⟨S_, .f32⟩
  | .hbm, ⟨69, _⟩ => ⟨S100000x32, .f32⟩
  | .hbm, ⟨70, _⟩ => ⟨S100000x32, .f32⟩
  | .hbm, ⟨71, _⟩ => ⟨S100000x16, .f32⟩
  | .hbm, ⟨72, _⟩ => ⟨S1x16, .f32⟩
  | .hbm, ⟨73, _⟩ => ⟨S100000x16, .f32⟩
  | .hbm, ⟨74, _⟩ => ⟨S100000x16, .f32⟩
  | .hbm, ⟨75, _⟩ => ⟨S1x1600000, .i32⟩
  | .hbm, ⟨76, _⟩ => ⟨S1600000, .i32⟩
  | .hbm, ⟨77, _⟩ => ⟨S1x1600000, .i32⟩
  | .hbm, ⟨78, _⟩ => ⟨S1600000, .i32⟩
  | .hbm, ⟨79, _⟩ => ⟨S_, .i32⟩
  | .hbm, ⟨80, _⟩ => ⟨S1600000, .i32⟩
  | .hbm, ⟨81, _⟩ => ⟨S1600000, .i1⟩
  | .hbm, ⟨82, _⟩ => ⟨S_, .i32⟩
  | .hbm, ⟨83, _⟩ => ⟨S1600000, .i32⟩
  | .hbm, ⟨84, _⟩ => ⟨S1600000, .i32⟩
  | .hbm, ⟨85, _⟩ => ⟨S1600000, .i32⟩
  | .hbm, ⟨86, _⟩ => ⟨S1600000x1, .i32⟩
  | .hbm, ⟨87, _⟩ => ⟨S1600000x16, .f32⟩
  | .hbm, ⟨88, _⟩ => ⟨S_, .f32⟩
  | .hbm, ⟨89, _⟩ => ⟨S100000x16, .f32⟩
  | .hbm, ⟨90, _⟩ => ⟨S1600000x1, .i32⟩
  | .hbm, ⟨91, _⟩ => ⟨S100000x16, .f32⟩
  | .hbm, ⟨92, _⟩ => ⟨S100000x16, .f32⟩
  | .hbm, ⟨93, _⟩ => ⟨S100000x32, .f32⟩
  | .hbm, ⟨94, _⟩ => ⟨S1x32, .f32⟩
  | .hbm, ⟨95, _⟩ => ⟨S100000x32, .f32⟩
  | .hbm, ⟨96, _⟩ => ⟨S100000x32, .f32⟩
  | .hbm, ⟨97, _⟩ => ⟨S_, .f32⟩
  | .hbm, ⟨98, _⟩ => ⟨S100000x32, .f32⟩
  | .hbm, ⟨99, _⟩ => ⟨S100000x32, .f32⟩
  | .hbm, ⟨100, _⟩ => ⟨S100000x16, .f32⟩
  | .hbm, ⟨101, _⟩ => ⟨S1x16, .f32⟩
  | .hbm, ⟨102, _⟩ => ⟨S100000x16, .f32⟩
  | .hbm, ⟨103, _⟩ => ⟨S100000x16, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_3 : Ref sig .tc := ⟨.hbm, 50, rfl⟩
abbrev main_v31 : Ref sig .tc := ⟨.hbm, 51, rfl⟩
abbrev main_v32 : Ref sig .tc := ⟨.hbm, 52, rfl⟩
abbrev main_c_4 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_5 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_6 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_7 : Ref sig .tc := ⟨.hbm, 79, rfl⟩
abbrev main_v56 : Ref sig .tc := ⟨.hbm, 80, rfl⟩
abbrev main_v57 : Ref sig .tc := ⟨.hbm, 81, rfl⟩
abbrev main_c_8 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_9 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_10 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []
  dot_S100000x32_S32x16_S100000x16_1_0_0_1_n_n_wf : DotDims.WF S100000x32 S32x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S100000x16_S16x32_S100000x32_1_0_0_1_n_n_wf : DotDims.WF S100000x16 S16x32 S100000x32 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf

class Facts : Prop extends Facts₀ where

variable [Facts]
-- ==== Proof.Spec.lean ====
/-
  The mathematics both programs compute, one node row at a time.

  A GIN layer takes a node's feature row `x` and the sum `g` of its in-neighbours' rows, and applies
  Linear → ReLU → Linear to `x + g`:

      out j = (∑ k, max ((∑ l, (x l + g l) · W1 l k) + b1 k) 0 · W2 k j) + b2 j

  over the extended reals. Nothing here needs a law of the extended reals beyond reading both programs'
  operations at an index: the kernel and the reference form the same sums in the same order, so the
  two sides meet term for term.
-/
import Idealize.ShloMosaic.PureOps.Ideal
import Idealize.ShloMosaic.PureOps.Ideal.Laws
import Idealize.ShloMosaic.Lib.ValueIdx

noncomputable section

open Idealize.ShloMosaic
open scoped BigOperators

namespace Cert.Spec

/-- The float zero both programs compare against in their ReLU, kept as its word: the same word on both sides is
    never evaluated. -/
abbrev zero : EReal := Ideal.ofBits .f32 0x00000000#32

/-- Linear → ReLU → Linear on the row `x + g`, at output column `j`. -/
def mlpRow {a b c : ℕ} (x g : Fin a → EReal) (W1 : Fin a → Fin b → EReal) (b1 : Fin b → EReal)
    (W2 : Fin b → Fin c → EReal) (b2 : Fin c → EReal) (j : Fin c) : EReal :=
  (∑ k : Fin b, max ((∑ l : Fin a, (x l + g l) * W1 l k) + b1 k) zero * W2 k j) + b2 j

/-- The hidden activation of that layer alone (Linear → ReLU), at hidden column `k`: what the second product sums over. -/
def hidRow {a b : ℕ} (x g : Fin a → EReal) (W1 : Fin a → Fin b → EReal) (b1 : Fin b → EReal) (k : Fin b) : EReal :=
  max ((∑ l : Fin a, (x l + g l) * W1 l k) + b1 k) zero

theorem mlpRow_eq {a b c : ℕ} (x g : Fin a → EReal) (W1 : Fin a → Fin b → EReal) (b1 : Fin b → EReal)
    (W2 : Fin b → Fin c → EReal) (b2 : Fin c → EReal) (j : Fin c) :
    mlpRow x g W1 b1 W2 b2 j = (∑ k : Fin b, hidRow x g W1 b1 k * W2 k j) + b2 j := rfl

end Cert.Spec

end
-- ==== Proof.TileDotA.lean ====
/-
  The [10000,64] x [64,32] product of a kernel body, read at an entry: each of the product's four index facts (which coordinate of an operand's index is the output's
  row, which its column, which the contracted one), then the product into the zero accumulator as the plain sum over
  the contracted axis of a row of the left operand against a column of the right.
-/
import proofs.«177043_j32633161515327_1_alg».proof.Proof.Gen.KernelIdeal
import Idealize.ShloMosaic.Lib.ValueIdx
import Idealize.ShloMosaic.PureOps.Ideal.Laws

noncomputable section

open Idealize.ShloMosaic Idealize.ShloMosaic.ValueIdx
open scoped BigOperators

namespace Cert.KernelIdeal.Tile

open Cert.KernelIdeal Cert.KernelIdeal.Gen

theorem lhsA_0 (i : S10000x32.Idx) (q : dot_S10000x64_S64x32_S10000x32_1_0_0_1_n_n.contr.Idx) :
    (dot_S10000x64_S64x32_S10000x32_1_0_0_1_n_n.lhsIdx i q 0).val = (i 0).val := by
  unfold DotDims.lhsIdx
  rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
  rfl
theorem lhsA_1 (i : S10000x32.Idx) (q : dot_S10000x64_S64x32_S10000x32_1_0_0_1_n_n.contr.Idx) :
    (dot_S10000x64_S64x32_S10000x32_1_0_0_1_n_n.lhsIdx i q 1).val = (q ⟨0, by decide⟩).val :=
  dot_S10000x64_S64x32_S10000x32_1_0_0_1_n_n.lhsIdx_val_of_single rfl i q
theorem rhsA_0 (i : S10000x32.Idx) (q : dot_S10000x64_S64x32_S10000x32_1_0_0_1_n_n.contr.Idx) :
    (dot_S10000x64_S64x32_S10000x32_1_0_0_1_n_n.rhsIdx i q 0).val = (q ⟨0, by decide⟩).val :=
  dot_S10000x64_S64x32_S10000x32_1_0_0_1_n_n.rhsIdx_val_of_single rfl i q
theorem rhsA_1 (i : S10000x32.Idx) (q : dot_S10000x64_S64x32_S10000x32_1_0_0_1_n_n.contr.Idx) :
    (dot_S10000x64_S64x32_S10000x32_1_0_0_1_n_n.rhsIdx i q 1).val = (i 1).val := by
  unfold DotDims.rhsIdx
  rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
  rfl

/-- Into the zero accumulator, entry (p, c) of the product is the sum over the contracted axis of row p of the left
    operand against column c of the right. -/
theorem matmulA_apply {φ₁ φ₂ : FTy} (l : FVec Ideal S10000x64 φ₁) (r : FVec Ideal S64x32 φ₂) (p : Fin 10000) (c : Fin 32) :
    matmul dot_S10000x64_S64x32_S10000x32_1_0_0_1_n_n none l r (constant S10000x32 .f32 0x00000000#32) (ix2 p c)
      = ∑ k : Fin 64, l (ix2 p k) * r (ix2 k c) := by
  simp only [matmul]
  rw [Ideal.matmul_constant_zero_apply, ← Equiv.sum_comp (contrEquiv1 dot_S10000x64_S64x32_S10000x32_1_0_0_1_n_n 64 rfl rfl).symm]
  refine Finset.sum_congr rfl fun k _ => ?_
  have hk := contrEquiv1_symm_val dot_S10000x64_S64x32_S10000x32_1_0_0_1_n_n 64 rfl rfl k
  have el : dot_S10000x64_S64x32_S10000x32_1_0_0_1_n_n.lhsIdx (ix2 p c) ((contrEquiv1 dot_S10000x64_S64x32_S10000x32_1_0_0_1_n_n 64 rfl rfl).symm k) = ix2 p k := funext fun a => Fin.ext (by
    match a with
    | ⟨0, _⟩ => exact lhsA_0 _ _
    | ⟨1, _⟩ => exact (lhsA_1 _ _).trans hk)
  have er : dot_S10000x64_S64x32_S10000x32_1_0_0_1_n_n.rhsIdx (ix2 p c) ((contrEquiv1 dot_S10000x64_S64x32_S10000x32_1_0_0_1_n_n 64 rfl rfl).symm k) = ix2 k c := funext fun a => Fin.ext (by
    match a with
    | ⟨0, _⟩ => exact (rhsA_0 _ _).trans hk
    | ⟨1, _⟩ => exact rhsA_1 _ _)
  rw [el, er]

end Cert.KernelIdeal.Tile

end
-- ==== Proof.TileDotB.lean ====
/-
  The [10000,32] x [32,16] product of a kernel body, read at an entry: each of the product's four index facts (which coordinate of an operand's index is the output's
  row, which its column, which the contracted one), then the product into the zero accumulator as the plain sum over
  the contracted axis of a row of the left operand against a column of the right.
-/
import proofs.«177043_j32633161515327_1_alg».proof.Proof.Gen.KernelIdeal
import Idealize.ShloMosaic.Lib.ValueIdx
import Idealize.ShloMosaic.PureOps.Ideal.Laws

noncomputable section

open Idealize.ShloMosaic Idealize.ShloMosaic.ValueIdx
open scoped BigOperators

namespace Cert.KernelIdeal.Tile

open Cert.KernelIdeal Cert.KernelIdeal.Gen

theorem lhsB_0 (i : S10000x16.Idx) (q : dot_S10000x32_S32x16_S10000x16_1_0_0_1_n_n.contr.Idx) :
    (dot_S10000x32_S32x16_S10000x16_1_0_0_1_n_n.lhsIdx i q 0).val = (i 0).val := by
  unfold DotDims.lhsIdx
  rw [dif_neg (show ¬(0 : Fin S10000x32.rank) ∈ dot_S10000x32_S32x16_S10000x16_1_0_0_1_n_n.lhsBatch by decide), dif_pos (show (0 : Fin S10000x32.rank) ∈ dot_S10000x32_S32x16_S10000x16_1_0_0_1_n_n.lhsNonContracting by decide)]
  rfl
theorem lhsB_1 (i : S10000x16.Idx) (q : dot_S10000x32_S32x16_S10000x16_1_0_0_1_n_n.contr.Idx) :
    (dot_S10000x32_S32x16_S10000x16_1_0_0_1_n_n.lhsIdx i q 1).val = (q ⟨0, by decide⟩).val :=
  dot_S10000x32_S32x16_S10000x16_1_0_0_1_n_n.lhsIdx_val_of_single rfl i q
theorem rhsB_0 (i : S10000x16.Idx) (q : dot_S10000x32_S32x16_S10000x16_1_0_0_1_n_n.contr.Idx) :
    (dot_S10000x32_S32x16_S10000x16_1_0_0_1_n_n.rhsIdx i q 0).val = (q ⟨0, by decide⟩).val :=
  dot_S10000x32_S32x16_S10000x16_1_0_0_1_n_n.rhsIdx_val_of_single rfl i q
theorem rhsB_1 (i : S10000x16.Idx) (q : dot_S10000x32_S32x16_S10000x16_1_0_0_1_n_n.contr.Idx) :
    (dot_S10000x32_S32x16_S10000x16_1_0_0_1_n_n.rhsIdx i q 1).val = (i 1).val := by
  unfold DotDims.rhsIdx
  rw [dif_neg (show ¬(1 : Fin S32x16.rank) ∈ dot_S10000x32_S32x16_S10000x16_1_0_0_1_n_n.rhsBatch by decide), dif_pos (show (1 : Fin S32x16.rank) ∈ dot_S10000x32_S32x16_S10000x16_1_0_0_1_n_n.rhsNonContracting by decide)]
  rfl

/-- Into the zero accumulator, entry (p, c) of the product is the sum over the contracted axis of row p of the left
    operand against column c of the right. -/
theorem matmulB_apply {φ₁ φ₂ : FTy} (l : FVec Ideal S10000x32 φ₁) (r : FVec Ideal S32x16 φ₂) (p : Fin 10000) (c : Fin 16) :
    matmul dot_S10000x32_S32x16_S10000x16_1_0_0_1_n_n none l r (constant S10000x16 .f32 0x00000000#32) (ix2 p c)
      = ∑ k : Fin 32, l (ix2 p k) * r (ix2 k c) := by
  simp only [matmul]
  rw [Ideal.matmul_constant_zero_apply, ← Equiv.sum_comp (contrEquiv1 dot_S10000x32_S32x16_S10000x16_1_0_0_1_n_n 32 rfl rfl).symm]
  refine Finset.sum_congr rfl fun k _ => ?_
  have hk := contrEquiv1_symm_val dot_S10000x32_S32x16_S10000x16_1_0_0_1_n_n 32 rfl rfl k
  have el : dot_S10000x32_S32x16_S10000x16_1_0_0_1_n_n.lhsIdx (ix2 p c) ((contrEquiv1 dot_S10000x32_S32x16_S10000x16_1_0_0_1_n_n 32 rfl rfl).symm k) = ix2 p k := funext fun a => Fin.ext (by
    match a with
    | ⟨0, _⟩ => exact lhsB_0 _ _
    | ⟨1, _⟩ => exact (lhsB_1 _ _).trans hk)
  have er : dot_S10000x32_S32x16_S10000x16_1_0_0_1_n_n.rhsIdx (ix2 p c) ((contrEquiv1 dot_S10000x32_S32x16_S10000x16_1_0_0_1_n_n 32 rfl rfl).symm k) = ix2 k c := funext fun a => Fin.ext (by
    match a with
    | ⟨0, _⟩ => exact (rhsB_0 _ _).trans hk
    | ⟨1, _⟩ => exact rhsB_1 _ _)
  rw [el, er]

end Cert.KernelIdeal.Tile

end
-- ==== Proof.TileDotC.lean ====
/-
  The [10000,16] x [16,32] product of a kernel body, read at an entry: each of the product's four index facts (which coordinate of an operand's index is the output's
  row, which its column, which the contracted one), then the product into the zero accumulator as the plain sum over
  the contracted axis of a row of the left operand against a column of the right.
-/
import proofs.«177043_j32633161515327_1_alg».proof.Proof.Gen.KernelIdeal
import Idealize.ShloMosaic.Lib.ValueIdx
import Idealize.ShloMosaic.PureOps.Ideal.Laws

noncomputable section

open Idealize.ShloMosaic Idealize.ShloMosaic.ValueIdx
open scoped BigOperators

namespace Cert.KernelIdeal.Tile

open Cert.KernelIdeal Cert.KernelIdeal.Gen

theorem lhsC_0 (i : S10000x32.Idx) (q : dot_S10000x16_S16x32_S10000x32_1_0_0_1_n_n.contr.Idx) :
    (dot_S10000x16_S16x32_S10000x32_1_0_0_1_n_n.lhsIdx i q 0).val = (i 0).val := by
  unfold DotDims.lhsIdx
  rw [dif_neg (show ¬(0 : Fin S10000x16.rank) ∈ dot_S10000x16_S16x32_S10000x32_1_0_0_1_n_n.lhsBatch by decide), dif_pos (show (0 : Fin S10000x16.rank) ∈ dot_S10000x16_S16x32_S10000x32_1_0_0_1_n_n.lhsNonContracting by decide)]
  rfl
theorem lhsC_1 (i : S10000x32.Idx) (q : dot_S10000x16_S16x32_S10000x32_1_0_0_1_n_n.contr.Idx) :
    (dot_S10000x16_S16x32_S10000x32_1_0_0_1_n_n.lhsIdx i q 1).val = (q ⟨0, by decide⟩).val :=
  dot_S10000x16_S16x32_S10000x32_1_0_0_1_n_n.lhsIdx_val_of_single rfl i q
theorem rhsC_0 (i : S10000x32.Idx) (q : dot_S10000x16_S16x32_S10000x32_1_0_0_1_n_n.contr.Idx) :
    (dot_S10000x16_S16x32_S10000x32_1_0_0_1_n_n.rhsIdx i q 0).val = (q ⟨0, by decide⟩).val :=
  dot_S10000x16_S16x32_S10000x32_1_0_0_1_n_n.rhsIdx_val_of_single rfl i q
theorem rhsC_1 (i : S10000x32.Idx) (q : dot_S10000x16_S16x32_S10000x32_1_0_0_1_n_n.contr.Idx) :
    (dot_S10000x16_S16x32_S10000x32_1_0_0_1_n_n.rhsIdx i q 1).val = (i 1).val := by
  unfold DotDims.rhsIdx
  rw [dif_neg (show ¬(1 : Fin S16x32.rank) ∈ dot_S10000x16_S16x32_S10000x32_1_0_0_1_n_n.rhsBatch by decide), dif_pos (show (1 : Fin S16x32.rank) ∈ dot_S10000x16_S16x32_S10000x32_1_0_0_1_n_n.rhsNonContracting by decide)]
  rfl

/-- Into the zero accumulator, entry (p, c) of the product is the sum over the contracted axis of row p of the left
    operand against column c of the right. -/
theorem matmulC_apply {φ₁ φ₂ : FTy} (l : FVec Ideal S10000x16 φ₁) (r : FVec Ideal S16x32 φ₂) (p : Fin 10000) (c : Fin 32) :
    matmul dot_S10000x16_S16x32_S10000x32_1_0_0_1_n_n none l r (constant S10000x32 .f32 0x00000000#32) (ix2 p c)
      = ∑ k : Fin 16, l (ix2 p k) * r (ix2 k c) := by
  simp only [matmul]
  rw [Ideal.matmul_constant_zero_apply, ← Equiv.sum_comp (contrEquiv1 dot_S10000x16_S16x32_S10000x32_1_0_0_1_n_n 16 rfl rfl).symm]
  refine Finset.sum_congr rfl fun k _ => ?_
  have hk := contrEquiv1_symm_val dot_S10000x16_S16x32_S10000x32_1_0_0_1_n_n 16 rfl rfl k
  have el : dot_S10000x16_S16x32_S10000x32_1_0_0_1_n_n.lhsIdx (ix2 p c) ((contrEquiv1 dot_S10000x16_S16x32_S10000x32_1_0_0_1_n_n 16 rfl rfl).symm k) = ix2 p k := funext fun a => Fin.ext (by
    match a with
    | ⟨0, _⟩ => exact lhsC_0 _ _
    | ⟨1, _⟩ => exact (lhsC_1 _ _).trans hk)
  have er : dot_S10000x16_S16x32_S10000x32_1_0_0_1_n_n.rhsIdx (ix2 p c) ((contrEquiv1 dot_S10000x16_S16x32_S10000x32_1_0_0_1_n_n 16 rfl rfl).symm k) = ix2 k c := funext fun a => Fin.ext (by
    match a with
    | ⟨0, _⟩ => exact (rhsC_0 _ _).trans hk
    | ⟨1, _⟩ => exact rhsC_1 _ _)
  rw [el, er]

end Cert.KernelIdeal.Tile

end
-- ==== Proof.TileValue.lean ====
/-
  The kernels' arithmetic on one tile of 10000 node rows, read at an entry.

  Each `tpu.matmul` of the two kernel bodies runs into a zero accumulator, so at the extended reals its entry
  (p, c) is the plain sum over the contracted axis of row p of the left operand against column c of the right
  (the three products' modules). With that, each body's stored value at (p, j) is the row function `Spec.mlpRow`
  of row p of the two node blocks and of the whole weight and bias blocks: the casts to bf16 and back are the
  identity, the bias row is broadcast down the tile, and the ReLU is a maximum with the zero word.
-/
import proofs.«177043_j32633161515327_1_alg».proof.Proof.Gen.KernelIdeal.Skeleton
import proofs.«177043_j32633161515327_1_alg».proof.Proof.Spec
import proofs.«177043_j32633161515327_1_alg».proof.Proof.TileDotA
import proofs.«177043_j32633161515327_1_alg».proof.Proof.TileDotB
import proofs.«177043_j32633161515327_1_alg».proof.Proof.TileDotC
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx
open scoped BigOperators

namespace Cert.KernelIdeal.Tile

open Cert.KernelIdeal Cert.KernelIdeal.Gen

/-- Layer 1's body stores, at (p, j), the ReLU of the row MLP of row p of the feature block plus row p of the
    aggregated block. -/
theorem pay_layer1 (x g : Vec Ideal S10000x64 .f32) (w1 : Vec Ideal S64x32 .f32) (c1 : Vec Ideal S1x32 .f32)
    (w2 : Vec Ideal S32x16 .f32) (c2 : Vec Ideal S1x16 .f32) (p : Fin 10000) (j : Fin 16) :
    k0_pay1 (F := Ideal) x g w1 c1 w2 c2 (ix2 p j)
      = max (Spec.mlpRow (fun l => x (ix2 p l)) (fun l => g (ix2 p l)) (fun l k => w1 (ix2 l k)) (fun k => c1 (ix2 (0 : Fin 1) k))
          (fun k j => w2 (ix2 k j)) (fun j => c2 (ix2 (0 : Fin 1) j)) j) Spec.zero := by
  unfold k0_pay1
  simp only [maximumf_apply, addf_apply, truncf_apply, broadcast_apply, matmulA_apply, matmulB_apply,
    broadcastTo_1b_ab_apply, shapeCast_self, Ideal.ofBits_def, Spec.mlpRow, Spec.zero]

/-- The mean branch of the second body stores, at (p, j), the row MLP (no outer ReLU) of row p of the hidden block
    plus row p of its aggregated block. -/
theorem pay_mu (h g : Vec Ideal S10000x16 .f32) (w1 : Vec Ideal S16x32 .f32) (c1 : Vec Ideal S1x32 .f32)
    (w2 : Vec Ideal S32x16 .f32) (c2 : Vec Ideal S1x16 .f32) (p : Fin 10000) (j : Fin 16) :
    k1_pay3 (F := Ideal) h g w1 c1 w2 c2 (ix2 p j)
      = Spec.mlpRow (fun l => h (ix2 p l)) (fun l => g (ix2 p l)) (fun l k => w1 (ix2 l k)) (fun k => c1 (ix2 (0 : Fin 1) k))
          (fun k j => w2 (ix2 k j)) (fun j => c2 (ix2 (0 : Fin 1) j)) j := by
  unfold k1_pay3 k1_pay2
  simp only [maximumf_apply, addf_apply, truncf_apply, broadcast_apply, matmulC_apply, matmulB_apply,
    broadcastTo_1b_ab_apply, shapeCast_self, Ideal.ofBits_def, Spec.mlpRow, Spec.zero]

/-- The log-deviation branch stores the same function of its own weights: its hidden activation is computed in the
    body's first part and passed on. -/
theorem pay_ls (h g : Vec Ideal S10000x16 .f32) (w1 : Vec Ideal S16x32 .f32) (c1 : Vec Ideal S1x32 .f32)
    (w2 : Vec Ideal S32x16 .f32) (c2 : Vec Ideal S1x16 .f32) (p : Fin 10000) (j : Fin 16) :
    k1_pay1 (F := Ideal) (k1_pay4 (F := Ideal) h g w1 c1) w2 c2 (ix2 p j)
      = Spec.mlpRow (fun l => h (ix2 p l)) (fun l => g (ix2 p l)) (fun l k => w1 (ix2 l k)) (fun k => c1 (ix2 (0 : Fin 1) k))
          (fun k j => w2 (ix2 k j)) (fun j => c2 (ix2 (0 : Fin 1) j)) j := by
  unfold k1_pay1 k1_pay4 k1_pay2
  simp only [maximumf_apply, addf_apply, truncf_apply, broadcast_apply, matmulC_apply, matmulB_apply,
    broadcastTo_1b_ab_apply, shapeCast_self, Ideal.ofBits_def, Spec.mlpRow, Spec.zero]

end Cert.KernelIdeal.Tile

end
-- ==== Proof.Layer.lean ====
/-
  A GIN layer over a whole array of node rows: entry (r, j) of the result is the row MLP (`Spec.mlpRow`) of row r
  of the node features `X` and row r of the aggregated neighbours `G`, with the layer's two weight matrices and
  its two bias vectors. Both programs' arrays are stated as this one function.
-/
import proofs.«177043_j32633161515327_1_alg».proof.Proof.Spec
import Idealize.ShloMosaic.Lib.ValueIdx

noncomputable section

open Idealize.ShloMosaic Idealize.ShloMosaic.ValueIdx

namespace Cert.Spec

/-- Entry (r, j) of the layer applied to every node row. -/
def layerArr {n a b c : ℕ} (X G : (⟨2, ![n, a]⟩ : Shape).Idx → EReal) (W1 : (⟨2, ![a, b]⟩ : Shape).Idx → EReal)
    (b1 : Fin b → EReal) (W2 : (⟨2, ![b, c]⟩ : Shape).Idx → EReal) (b2 : Fin c → EReal) (r : Fin n) (j : Fin c) : EReal :=
  mlpRow (fun l => X (ix2 r l)) (fun l => G (ix2 r l)) (fun l k => W1 (ix2 l k)) b1 (fun k j => W2 (ix2 k j)) b2 j

end Cert.Spec

end
-- ==== Proof.Region0.lean ====
/-
  The first pallas_call's result array, for ANY contents `V` the region is entered with.

  The grid has ten points; point t stages rows 10000·t … 10000·t + 9999 of the node features and of the
  aggregated neighbours, and the whole of each weight and bias array, and writes back rows 10000·t … of the result.
  So the block point t writes back is block t of one whole-array function: at (r, j) the ReLU of the layer
  (`Spec.layerArr`) at node row r. The ten blocks tile the 100000 rows, hence the result array ends holding that
  function.
-/
import proofs.«177043_j32633161515327_1_alg».proof.Proof.Gen.KernelIdeal.Frame
import proofs.«177043_j32633161515327_1_alg».proof.Proof.TileValue
import proofs.«177043_j32633161515327_1_alg».proof.Proof.Layer
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Layer1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the node-row windows (features, aggregate, result) sit at block row t, the
    weight and bias windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 10 := lt_of_lt_of_eq t.isLt (show cfg0.N = 10 from N_0)

/-- The node row that row p of point t's blocks is. -/
def row (t : Fin cfg0.N) (p : Fin 10000) : Fin 100000 :=
  ⟨t.val * 10000 + p.val, by have := t_lt t; have := p.isLt; omega⟩

/-- The whole-array function the result ends holding. -/
def H (c : Dev nD) : S100000x16.Idx → EReal := fun i =>
  max (Spec.layerArr (V c main_arg0) (V c main_v13) (V c main_arg2) (fun k => (V c main_v14 : S1x32.Idx → EReal) (ix2 (0 : Fin 1) k))
    (V c main_arg4) (fun j => (V c main_v15 : S1x16.Idx → EReal) (ix2 (0 : Fin 1) j)) (i 0) (i 1)) Spec.zero

/-! ## Each input block read where it sits in its array -/

theorem blk_x (c : Dev nD) (t : Fin cfg0.N) (p : Fin 10000) (l : Fin 64) :
    (iblk0 V c 0 t : Vec Ideal S10000x64 .f32) (ix2 p l) = (V c main_arg0 : S100000x64.Idx → EReal) (ix2 (row t p) l) := by
  obtain ⟨e0, e1, -⟩ := idx_facts t
  show (V c main_arg0 : S100000x64.Idx → EReal) (((cfg0.win 0).blk t).view.emb (ix2 p l)) = _
  refine congrArg _ (funext fun a => Fin.ext ?_)
  match a with
  | ⟨0, _⟩ => show win0_0.index t (0 : Fin 2) * 10000 + 1 * p.val = t.val * 10000 + p.val; rw [e0]; omega
  | ⟨1, _⟩ => show win0_0.index t (1 : Fin 2) * 64 + 1 * l.val = l.val; rw [e1]; omega

theorem blk_g (c : Dev nD) (t : Fin cfg0.N) (p : Fin 10000) (l : Fin 64) :
    (iblk0 V c 1 t : Vec Ideal S10000x64 .f32) (ix2 p l) = (V c main_v13 : S100000x64.Idx → EReal) (ix2 (row t p) l) := by
  obtain ⟨-, -, e0, e1, -⟩ := idx_facts t
  show (V c main_v13 : S100000x64.Idx → EReal) (((cfg0.win 1).blk t).view.emb (ix2 p l)) = _
  refine congrArg _ (funext fun a => Fin.ext ?_)
  match a with
  | ⟨0, _⟩ => show win0_1.index t (0 : Fin 2) * 10000 + 1 * p.val = t.val * 10000 + p.val; rw [e0]; omega
  | ⟨1, _⟩ => show win0_1.index t (1 : Fin 2) * 64 + 1 * l.val = l.val; rw [e1]; omega

theorem blk_w1 (c : Dev nD) (t : Fin cfg0.N) (l : Fin 64) (k : Fin 32) :
    (iblk0 V c 2 t : Vec Ideal S64x32 .f32) (ix2 l k) = (V c main_arg2 : S64x32.Idx → EReal) (ix2 l k) := by
  obtain ⟨-, -, -, -, e0, e1, -⟩ := idx_facts t
  show (V c main_arg2 : S64x32.Idx → EReal) (((cfg0.win 2).blk t).view.emb (ix2 l k)) = _
  refine congrArg _ (funext fun a => Fin.ext ?_)
  match a with
  | ⟨0, _⟩ => show win0_2.index t (0 : Fin 2) * 64 + 1 * l.val = l.val; rw [e0]; omega
  | ⟨1, _⟩ => show win0_2.index t (1 : Fin 2) * 32 + 1 * k.val = k.val; rw [e1]; omega

theorem blk_b1 (c : Dev nD) (t : Fin cfg0.N) (k : Fin 32) :
    (iblk0 V c 3 t : Vec Ideal S1x32 .f32) (ix2 (0 : Fin 1) k) = (V c main_v14 : S1x32.Idx → EReal) (ix2 (0 : Fin 1) k) := by
  obtain ⟨-, -, -, -, -, -, e0, e1, -⟩ := idx_facts t
  show (V c main_v14 : S1x32.Idx → EReal) (((cfg0.win 3).blk t).view.emb (ix2 (0 : Fin 1) k)) = _
  refine congrArg _ (funext fun a => Fin.ext ?_)
  match a with
  | ⟨0, _⟩ => show win0_3.index t (0 : Fin 2) * 1 + 1 * 0 = 0; rw [e0]
  | ⟨1, _⟩ => show win0_3.index t (1 : Fin 2) * 32 + 1 * k.val = k.val; rw [e1]; omega

theorem blk_w2 (c : Dev nD) (t : Fin cfg0.N) (k : Fin 32) (j : Fin 16) :
    (iblk0 V c 4 t : Vec Ideal S32x16 .f32) (ix2 k j) = (V c main_arg4 : S32x16.Idx → EReal) (ix2 k j) := by
  obtain ⟨-, -, -, -, -, -, -, -, e0, e1, -⟩ := idx_facts t
  show (V c main_arg4 : S32x16.Idx → EReal) (((cfg0.win 4).blk t).view.emb (ix2 k j)) = _
  refine congrArg _ (funext fun a => Fin.ext ?_)
  match a with
  | ⟨0, _⟩ => show win0_4.index t (0 : Fin 2) * 32 + 1 * k.val = k.val; rw [e0]; omega
  | ⟨1, _⟩ => show win0_4.index t (1 : Fin 2) * 16 + 1 * j.val = j.val; rw [e1]; omega

theorem blk_b2 (c : Dev nD) (t : Fin cfg0.N) (j : Fin 16) :
    (iblk0 V c 5 t : Vec Ideal S1x16 .f32) (ix2 (0 : Fin 1) j) = (V c main_v15 : S1x16.Idx → EReal) (ix2 (0 : Fin 1) j) := by
  obtain ⟨-, -, -, -, -, -, -, -, -, -, e0, e1, -⟩ := idx_facts t
  show (V c main_v15 : S1x16.Idx → EReal) (((cfg0.win 5).blk t).view.emb (ix2 (0 : Fin 1) j)) = _
  refine congrArg _ (funext fun a => Fin.ext ?_)
  match a with
  | ⟨0, _⟩ => show win0_5.index t (0 : Fin 2) * 1 + 1 * 0 = 0; rw [e0]
  | ⟨1, _⟩ => show win0_5.index t (1 : Fin 2) * 16 + 1 * j.val = j.val; rw [e1]; omega

/-- Entry (p, j) of point t's result block sits at node row `row t p`, column j of the result array. -/
theorem emb_out (t : Fin cfg0.N) (p : Fin 10000) (j : Fin 16) :
    ((cfg0.win 6).blk t).view.emb (ix2 p j) = (ix2 (row t p) j : S100000x16.Idx) := by
  obtain ⟨-, -, -, -, -, -, -, -, -, -, -, -, e0, e1⟩ := idx_facts t
  refine funext fun a => Fin.ext ?_
  match a with
  | ⟨0, _⟩ => show win0_6.index t (0 : Fin 2) * 10000 + 1 * p.val = t.val * 10000 + p.val; rw [e0]; omega
  | ⟨1, _⟩ => show win0_6.index t (1 : Fin 2) * 16 + 1 * j.val = j.val; rw [e1]; omega

/-! ## What point t writes back, the cover, the array -/

/-- Point t writes back block t of `H`. -/
theorem flushed_eq (c : Dev nD) (t : Fin cfg0.N) :
    (dat0 V c).flushed 6 t = ((cfg0.win 6).blk t).view.read (Elt Ideal) (H V c) := by
  show (cfg0.win 6).cut (grid0.coords t) ((dat0 V c).after 6 t) = _
  rw [after0_6]
  unfold out0_6
  rw [View.canon_unit_zero hz]
  simp only [View.ld_unit_zero (S := S10000x64) hz, View.ld_unit_zero (S := S64x32) hz, View.ld_unit_zero (S := S1x32) hz,
    View.ld_unit_zero (S := S32x16) hz, View.ld_unit_zero (S := S1x16) hz]
  funext y
  obtain ⟨p, j, rfl⟩ : ∃ (p : Fin 10000) (j : Fin 16), y = ix2 p j := ⟨y 0, y 1, eq_ix2 y⟩
  show k0_pay1 (F := Ideal) (iblk0 V c 0 t) (iblk0 V c 1 t) (iblk0 V c 2 t) (iblk0 V c 3 t) (iblk0 V c 4 t) (iblk0 V c 5 t) (ix2 p j)
      = H V c (((cfg0.win 6).blk t).view.emb (ix2 p j))
  rw [emb_out t p j]
  refine (Tile.pay_layer1 (iblk0 V c 0 t) (iblk0 V c 1 t) (iblk0 V c 2 t) (iblk0 V c 3 t) (iblk0 V c 4 t) (iblk0 V c 5 t) p j).trans ?_
  unfold H Spec.layerArr
  simp only [blk_x, blk_g, blk_w1, blk_b1, blk_w2, blk_b2]

/-- An index of the result array is in point t's block iff each coordinate is in the block's range on its axis. -/
theorem mem_blk (t : Fin cfg0.N) (i : S100000x16.Idx) :
    i ∈ ((cfg0.win 6).blk t).view.set ↔ ∀ a : Fin 2, win0_6.index t a * S10000x16.size a ≤ (i a).val ∧ (i a).val < win0_6.index t a * S10000x16.size a + S10000x16.size a := by
  show i ∈ ((View.whole main_v16).slice (win0_6.rect t)).set ↔ _
  rw [View.set_slice_whole, Rect.mem_set_unit]
  exact Iff.rfl

/-- Every node row is in the block of the point its row number divided by 10000 names. -/
theorem cover (i : S100000x16.Idx) : ∃ t : Fin cfg0.N, (cfg0.win 6).flush t = true ∧ i ∈ ((cfg0.win 6).blk t).view.set := by
  have hi0 : (i 0).val < 100000 := (i 0).isLt
  have hi1 : (i 1).val < 16 := (i 1).isLt
  let t : Fin cfg0.N := ⟨(i 0).val / 10000, by rw [show cfg0.N = 10 from N_0]; omega⟩
  obtain ⟨-, -, -, -, -, -, -, -, -, -, -, -, e0, e1⟩ := idx_facts t
  refine ⟨t, flush0_6 t, ?_⟩
  rw [mem_blk]
  intro a
  have ht : t.val = (i 0).val / 10000 := rfl
  match a with
  | ⟨0, _⟩ => show win0_6.index t (0 : Fin 2) * 10000 ≤ (i 0).val ∧ (i 0).val < win0_6.index t (0 : Fin 2) * 10000 + 10000; rw [e0, ht]; omega
  | ⟨1, _⟩ => show win0_6.index t (1 : Fin 2) * 16 ≤ (i 1).val ∧ (i 1).val < win0_6.index t (1 : Fin 2) * 16 + 16; rw [e1]; omega

/-- The result array after the region: `H` of the contents the region was entered with. -/
theorem final (c : Dev nD) : (dat0 V c).arrAt 6 cfg0.N = H V c :=
  (dat0 V c).arrAt_eq_of_cover 6 (H V c) (fun t _ => flushed_eq V c t) cover

end Cert.KernelIdeal.Layer1

end
-- ==== Proof.Region1.lean ====
/-
  The second pallas_call's two result arrays, for ANY contents `V` the region is entered with.

  Again ten grid points; point t stages rows 10000·t … of the hidden features and of their aggregated neighbours, the
  whole of the eight weight and bias arrays, and writes back rows 10000·t … of both results. The mean branch and the
  log-deviation branch are the same layer (`Spec.layerArr`, no outer ReLU) of the same two node arrays with their own
  weights and biases; each branch's ten blocks tile its result array.
-/
import proofs.«177043_j32633161515327_1_alg».proof.Proof.Gen.KernelIdeal.Frame
import proofs.«177043_j32633161515327_1_alg».proof.Proof.TileValue
import proofs.«177043_j32633161515327_1_alg».proof.Proof.Layer
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Layer23

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## The printed index maps over the grid: node-row windows at block row t, weights and biases at block (0, 0) -/

theorem idx_h : ∀ t : Fin cfg1.N, win1_0.index t (0 : Fin 2) = t.val ∧ win1_0.index t (1 : Fin 2) = 0 :=
  (by decide +kernel : ∀ t : Fin grid1.N, _)
theorem idx_g : ∀ t : Fin cfg1.N, win1_1.index t (0 : Fin 2) = t.val ∧ win1_1.index t (1 : Fin 2) = 0 :=
  (by decide +kernel : ∀ t : Fin grid1.N, _)
theorem idx_w1mu : ∀ t : Fin cfg1.N, win1_2.index t (0 : Fin 2) = 0 ∧ win1_2.index t (1 : Fin 2) = 0 :=
  (by decide +kernel : ∀ t : Fin grid1.N, _)
theorem idx_b1mu : ∀ t : Fin cfg1.N, win1_3.index t (0 : Fin 2) = 0 ∧ win1_3.index t (1 : Fin 2) = 0 :=
  (by decide +kernel : ∀ t : Fin grid1.N, _)
theorem idx_w2mu : ∀ t : Fin cfg1.N, win1_4.index t (0 : Fin 2) = 0 ∧ win1_4.index t (1 : Fin 2) = 0 :=
  (by decide +kernel : ∀ t : Fin grid1.N, _)
theorem idx_b2mu : ∀ t : Fin cfg1.N, win1_5.index t (0 : Fin 2) = 0 ∧ win1_5.index t (1 : Fin 2) = 0 :=
  (by decide +kernel : ∀ t : Fin grid1.N, _)
theorem idx_w1ls : ∀ t : Fin cfg1.N, win1_6.index t (0 : Fin 2) = 0 ∧ win1_6.index t (1 : Fin 2) = 0 :=
  (by decide +kernel : ∀ t : Fin grid1.N, _)
theorem idx_b1ls : ∀ t : Fin cfg1.N, win1_7.index t (0 : Fin 2) = 0 ∧ win1_7.index t (1 : Fin 2) = 0 :=
  (by decide +kernel : ∀ t : Fin grid1.N, _)
theorem idx_w2ls : ∀ t : Fin cfg1.N, win1_8.index t (0 : Fin 2) = 0 ∧ win1_8.index t (1 : Fin 2) = 0 :=
  (by decide +kernel : ∀ t : Fin grid1.N, _)
theorem idx_b2ls : ∀ t : Fin cfg1.N, win1_9.index t (0 : Fin 2) = 0 ∧ win1_9.index t (1 : Fin 2) = 0 :=
  (by decide +kernel : ∀ t : Fin grid1.N, _)
theorem idx_mu : ∀ t : Fin cfg1.N, win1_10.index t (0 : Fin 2) = t.val ∧ win1_10.index t (1 : Fin 2) = 0 :=
  (by decide +kernel : ∀ t : Fin grid1.N, _)
theorem idx_ls : ∀ t : Fin cfg1.N, win1_11.index t (0 : Fin 2) = t.val ∧ win1_11.index t (1 : Fin 2) = 0 :=
  (by decide +kernel : ∀ t : Fin grid1.N, _)

theorem t_lt (t : Fin cfg1.N) : t.val < 10 := lt_of_lt_of_eq t.isLt (show cfg1.N = 10 from N_1)

/-- The node row that row p of point t's blocks is. -/
def row (t : Fin cfg1.N) (p : Fin 10000) : Fin 100000 :=
  ⟨t.val * 10000 + p.val, by have := t_lt t; have := p.isLt; omega⟩

/-- The mean branch's whole-array function. -/
def Mu (c : Dev nD) : S100000x16.Idx → EReal := fun i =>
  Spec.layerArr (V c main_v16) (V c main_v26) (V c main_arg6) (fun k => (V c main_v27 : S1x32.Idx → EReal) (ix2 (0 : Fin 1) k))
    (V c main_arg8) (fun j => (V c main_v28 : S1x16.Idx → EReal) (ix2 (0 : Fin 1) j)) (i 0) (i 1)

/-- The log-deviation branch's whole-array function. -/
def Ls (c : Dev nD) : S100000x16.Idx → EReal := fun i =>
  Spec.layerArr (V c main_v16) (V c main_v26) (V c main_arg10) (fun k => (V c main_v29 : S1x32.Idx → EReal) (ix2 (0 : Fin 1) k))
    (V c main_arg12) (fun j => (V c main_v30 : S1x16.Idx → EReal) (ix2 (0 : Fin 1) j)) (i 0) (i 1)

/-! ## Each input block read where it sits in its array -/

theorem blk_h (c : Dev nD) (t : Fin cfg1.N) (p : Fin 10000) (l : Fin 16) :
    (iblk1 V c 0 t : Vec Ideal S10000x16 .f32) (ix2 p l) = (V c main_v16 : S100000x16.Idx → EReal) (ix2 (row t p) l) := by
  obtain ⟨e0, e1⟩ := idx_h t
  show (V c main_v16 : S100000x16.Idx → EReal) (((cfg1.win 0).blk t).view.emb (ix2 p l)) = _
  refine congrArg _ (funext fun a => Fin.ext ?_)
  match a with
  | ⟨0, _⟩ => show win1_0.index t (0 : Fin 2) * 10000 + 1 * p.val = t.val * 10000 + p.val; rw [e0]; omega
  | ⟨1, _⟩ => show win1_0.index t (1 : Fin 2) * 16 + 1 * l.val = l.val; rw [e1]; omega

theorem blk_g (c : Dev nD) (t : Fin cfg1.N) (p : Fin 10000) (l : Fin 16) :
    (iblk1 V c 1 t : Vec Ideal S10000x16 .f32) (ix2 p l) = (V c main_v26 : S100000x16.Idx → EReal) (ix2 (row t p) l) := by
  obtain ⟨e0, e1⟩ := idx_g t
  show (V c main_v26 : S100000x16.Idx → EReal) (((cfg1.win 1).blk t).view.emb (ix2 p l)) = _
  refine congrArg _ (funext fun a => Fin.ext ?_)
  match a with
  | ⟨0, _⟩ => show win1_1.index t (0 : Fin 2) * 10000 + 1 * p.val = t.val * 10000 + p.val; rw [e0]; omega
  | ⟨1, _⟩ => show win1_1.index t (1 : Fin 2) * 16 + 1 * l.val = l.val; rw [e1]; omega

theorem blk_w1mu (c : Dev nD) (t : Fin cfg1.N) (l : Fin 16) (k : Fin 32) :
    (iblk1 V c 2 t : Vec Ideal S16x32 .f32) (ix2 l k) = (V c main_arg6 : S16x32.Idx → EReal) (ix2 l k) := by
  obtain ⟨e0, e1⟩ := idx_w1mu t
  show (V c main_arg6 : S16x32.Idx → EReal) (((cfg1.win 2).blk t).view.emb (ix2 l k)) = _
  refine congrArg _ (funext fun a => Fin.ext ?_)
  match a with
  | ⟨0, _⟩ => show win1_2.index t (0 : Fin 2) * 16 + 1 * l.val = l.val; rw [e0]; omega
  | ⟨1, _⟩ => show win1_2.index t (1 : Fin 2) * 32 + 1 * k.val = k.val; rw [e1]; omega

theorem blk_b1mu (c : Dev nD) (t : Fin cfg1.N) (k : Fin 32) :
    (iblk1 V c 3 t : Vec Ideal S1x32 .f32) (ix2 (0 : Fin 1) k) = (V c main_v27 : S1x32.Idx → EReal) (ix2 (0 : Fin 1) k) := by
  obtain ⟨e0, e1⟩ := idx_b1mu t
  show (V c main_v27 : S1x32.Idx → EReal) (((cfg1.win 3).blk t).view.emb (ix2 (0 : Fin 1) k)) = _
  refine congrArg _ (funext fun a => Fin.ext ?_)
  match a with
  | ⟨0, _⟩ => show win1_3.index t (0 : Fin 2) * 1 + 1 * 0 = 0; rw [e0]
  | ⟨1, _⟩ => show win1_3.index t (1 : Fin 2) * 32 + 1 * k.val = k.val; rw [e1]; omega

theorem blk_w2mu (c : Dev nD) (t : Fin cfg1.N) (k : Fin 32) (j : Fin 16) :
    (iblk1 V c 4 t : Vec Ideal S32x16 .f32) (ix2 k j) = (V c main_arg8 : S32x16.Idx → EReal) (ix2 k j) := by
  obtain ⟨e0, e1⟩ := idx_w2mu t
  show (V c main_arg8 : S32x16.Idx → EReal) (((cfg1.win 4).blk t).view.emb (ix2 k j)) = _
  refine congrArg _ (funext fun a => Fin.ext ?_)
  match a with
  | ⟨0, _⟩ => show win1_4.index t (0 : Fin 2) * 32 + 1 * k.val = k.val; rw [e0]; omega
  | ⟨1, _⟩ => show win1_4.index t (1 : Fin 2) * 16 + 1 * j.val = j.val; rw [e1]; omega

theorem blk_b2mu (c : Dev nD) (t : Fin cfg1.N) (j : Fin 16) :
    (iblk1 V c 5 t : Vec Ideal S1x16 .f32) (ix2 (0 : Fin 1) j) = (V c main_v28 : S1x16.Idx → EReal) (ix2 (0 : Fin 1) j) := by
  obtain ⟨e0, e1⟩ := idx_b2mu t
  show (V c main_v28 : S1x16.Idx → EReal) (((cfg1.win 5).blk t).view.emb (ix2 (0 : Fin 1) j)) = _
  refine congrArg _ (funext fun a => Fin.ext ?_)
  match a with
  | ⟨0, _⟩ => show win1_5.index t (0 : Fin 2) * 1 + 1 * 0 = 0; rw [e0]
  | ⟨1, _⟩ => show win1_5.index t (1 : Fin 2) * 16 + 1 * j.val = j.val; rw [e1]; omega

theorem blk_w1ls (c : Dev nD) (t : Fin cfg1.N) (l : Fin 16) (k : Fin 32) :
    (iblk1 V c 6 t : Vec Ideal S16x32 .f32) (ix2 l k) = (V c main_arg10 : S16x32.Idx → EReal) (ix2 l k) := by
  obtain ⟨e0, e1⟩ := idx_w1ls t
  show (V c main_arg10 : S16x32.Idx → EReal) (((cfg1.win 6).blk t).view.emb (ix2 l k)) = _
  refine congrArg _ (funext fun a => Fin.ext ?_)
  match a with
  | ⟨0, _⟩ => show win1_6.index t (0 : Fin 2) * 16 + 1 * l.val = l.val; rw [e0]; omega
  | ⟨1, _⟩ => show win1_6.index t (1 : Fin 2) * 32 + 1 * k.val = k.val; rw [e1]; omega

theorem blk_b1ls (c : Dev nD) (t : Fin cfg1.N) (k : Fin 32) :
    (iblk1 V c 7 t : Vec Ideal S1x32 .f32) (ix2 (0 : Fin 1) k) = (V c main_v29 : S1x32.Idx → EReal) (ix2 (0 : Fin 1) k) := by
  obtain ⟨e0, e1⟩ := idx_b1ls t
  show (V c main_v29 : S1x32.Idx → EReal) (((cfg1.win 7).blk t).view.emb (ix2 (0 : Fin 1) k)) = _
  refine congrArg _ (funext fun a => Fin.ext ?_)
  match a with
  | ⟨0, _⟩ => show win1_7.index t (0 : Fin 2) * 1 + 1 * 0 = 0; rw [e0]
  | ⟨1, _⟩ => show win1_7.index t (1 : Fin 2) * 32 + 1 * k.val = k.val; rw [e1]; omega

theorem blk_w2ls (c : Dev nD) (t : Fin cfg1.N) (k : Fin 32) (j : Fin 16) :
    (iblk1 V c 8 t : Vec Ideal S32x16 .f32) (ix2 k j) = (V c main_arg12 : S32x16.Idx → EReal) (ix2 k j) := by
  obtain ⟨e0, e1⟩ := idx_w2ls t
  show (V c main_arg12 : S32x16.Idx → EReal) (((cfg1.win 8).blk t).view.emb (ix2 k j)) = _
  refine congrArg _ (funext fun a => Fin.ext ?_)
  match a with
  | ⟨0, _⟩ => show win1_8.index t (0 : Fin 2) * 32 + 1 * k.val = k.val; rw [e0]; omega
  | ⟨1, _⟩ => show win1_8.index t (1 : Fin 2) * 16 + 1 * j.val = j.val; rw [e1]; omega

theorem blk_b2ls (c : Dev nD) (t : Fin cfg1.N) (j : Fin 16) :
    (iblk1 V c 9 t : Vec Ideal S1x16 .f32) (ix2 (0 : Fin 1) j) = (V c main_v30 : S1x16.Idx → EReal) (ix2 (0 : Fin 1) j) := by
  obtain ⟨e0, e1⟩ := idx_b2ls t
  show (V c main_v30 : S1x16.Idx → EReal) (((cfg1.win 9).blk t).view.emb (ix2 (0 : Fin 1) j)) = _
  refine congrArg _ (funext fun a => Fin.ext ?_)
  match a with
  | ⟨0, _⟩ => show win1_9.index t (0 : Fin 2) * 1 + 1 * 0 = 0; rw [e0]
  | ⟨1, _⟩ => show win1_9.index t (1 : Fin 2) * 16 + 1 * j.val = j.val; rw [e1]; omega

/-- Entry (p, j) of point t's block of the mean result sits at node row `row t p`, column j. -/
theorem emb_mu (t : Fin cfg1.N) (p : Fin 10000) (j : Fin 16) :
    ((cfg1.win 10).blk t).view.emb (ix2 p j) = (ix2 (row t p) j : S100000x16.Idx) := by
  obtain ⟨e0, e1⟩ := idx_mu t
  refine funext fun a => Fin.ext ?_
  match a with
  | ⟨0, _⟩ => show win1_10.index t (0 : Fin 2) * 10000 + 1 * p.val = t.val * 10000 + p.val; rw [e0]; omega
  | ⟨1, _⟩ => show win1_10.index t (1 : Fin 2) * 16 + 1 * j.val = j.val; rw [e1]; omega

/-- The same for the log-deviation result. -/
theorem emb_ls (t : Fin cfg1.N) (p : Fin 10000) (j : Fin 16) :
    ((cfg1.win 11).blk t).view.emb (ix2 p j) = (ix2 (row t p) j : S100000x16.Idx) := by
  obtain ⟨e0, e1⟩ := idx_ls t
  refine funext fun a => Fin.ext ?_
  match a with
  | ⟨0, _⟩ => show win1_11.index t (0 : Fin 2) * 10000 + 1 * p.val = t.val * 10000 + p.val; rw [e0]; omega
  | ⟨1, _⟩ => show win1_11.index t (1 : Fin 2) * 16 + 1 * j.val = j.val; rw [e1]; omega

/-! ## What point t writes back -/

/-- Point t writes back block t of `Mu`. -/
theorem flushed_mu (c : Dev nD) (t : Fin cfg1.N) :
    (dat1 V c).flushed 10 t = ((cfg1.win 10).blk t).view.read (Elt Ideal) (Mu V c) := by
  show (cfg1.win 10).cut (grid1.coords t) ((dat1 V c).after 10 t) = _
  rw [after1_10]
  unfold out1_10
  rw [View.canon_unit_zero hz]
  simp only [View.ld_unit_zero (S := S10000x16) hz, View.ld_unit_zero (S := S16x32) hz, View.ld_unit_zero (S := S1x32) hz,
    View.ld_unit_zero (S := S32x16) hz, View.ld_unit_zero (S := S1x16) hz]
  funext y
  obtain ⟨p, j, rfl⟩ : ∃ (p : Fin 10000) (j : Fin 16), y = ix2 p j := ⟨y 0, y 1, eq_ix2 y⟩
  show k1_pay3 (F := Ideal) (iblk1 V c 0 t) (iblk1 V c 1 t) (iblk1 V c 2 t) (iblk1 V c 3 t) (iblk1 V c 4 t) (iblk1 V c 5 t) (ix2 p j)
      = Mu V c (((cfg1.win 10).blk t).view.emb (ix2 p j))
  rw [emb_mu t p j]
  refine (Tile.pay_mu (iblk1 V c 0 t) (iblk1 V c 1 t) (iblk1 V c 2 t) (iblk1 V c 3 t) (iblk1 V c 4 t) (iblk1 V c 5 t) p j).trans ?_
  unfold Mu Spec.layerArr
  simp only [blk_h, blk_g, blk_w1mu, blk_b1mu, blk_w2mu, blk_b2mu]

/-- Point t writes back block t of `Ls`. -/
theorem flushed_ls (c : Dev nD) (t : Fin cfg1.N) :
    (dat1 V c).flushed 11 t = ((cfg1.win 11).blk t).view.read (Elt Ideal) (Ls V c) := by
  show (cfg1.win 11).cut (grid1.coords t) ((dat1 V c).after 11 t) = _
  rw [after1_11]
  unfold out1_11
  rw [View.canon_unit_zero hz]
  simp only [View.ld_unit_zero (S := S10000x16) hz, View.ld_unit_zero (S := S16x32) hz, View.ld_unit_zero (S := S1x32) hz,
    View.ld_unit_zero (S := S32x16) hz, View.ld_unit_zero (S := S1x16) hz]
  funext y
  obtain ⟨p, j, rfl⟩ : ∃ (p : Fin 10000) (j : Fin 16), y = ix2 p j := ⟨y 0, y 1, eq_ix2 y⟩
  show k1_pay1 (F := Ideal) (k1_pay4 (F := Ideal) (iblk1 V c 0 t) (iblk1 V c 1 t) (iblk1 V c 6 t) (iblk1 V c 7 t)) (iblk1 V c 8 t) (iblk1 V c 9 t) (ix2 p j)
      = Ls V c (((cfg1.win 11).blk t).view.emb (ix2 p j))
  rw [emb_ls t p j]
  refine (Tile.pay_ls (iblk1 V c 0 t) (iblk1 V c 1 t) (iblk1 V c 6 t) (iblk1 V c 7 t) (iblk1 V c 8 t) (iblk1 V c 9 t) p j).trans ?_
  unfold Ls Spec.layerArr
  simp only [blk_h, blk_g, blk_w1ls, blk_b1ls, blk_w2ls, blk_b2ls]

/-! ## The covers and the arrays -/

theorem mem_blk_mu (t : Fin cfg1.N) (i : S100000x16.Idx) :
    i ∈ ((cfg1.win 10).blk t).view.set ↔ ∀ a : Fin 2, win1_10.index t a * S10000x16.size a ≤ (i a).val ∧ (i a).val < win1_10.index t a * S10000x16.size a + S10000x16.size a := by
  show i ∈ ((View.whole main_v31_0).slice (win1_10.rect t)).set ↔ _
  rw [View.set_slice_whole, Rect.mem_set_unit]
  exact Iff.rfl

theorem mem_blk_ls (t : Fin cfg1.N) (i : S100000x16.Idx) :
    i ∈ ((cfg1.win 11).blk t).view.set ↔ ∀ a : Fin 2, win1_11.index t a * S10000x16.size a ≤ (i a).val ∧ (i a).val < win1_11.index t a * S10000x16.size a + S10000x16.size a := by
  show i ∈ ((View.whole main_v31_1).slice (win1_11.rect t)).set ↔ _
  rw [View.set_slice_whole, Rect.mem_set_unit]
  exact Iff.rfl

/-- Every node row is in the block of the point its row number divided by 10000 names. -/
theorem cover_mu (i : S100000x16.Idx) : ∃ t : Fin cfg1.N, (cfg1.win 10).flush t = true ∧ i ∈ ((cfg1.win 10).blk t).view.set := by
  have hi0 : (i 0).val < 100000 := (i 0).isLt
  have hi1 : (i 1).val < 16 := (i 1).isLt
  let t : Fin cfg1.N := ⟨(i 0).val / 10000, by rw [show cfg1.N = 10 from N_1]; omega⟩
  obtain ⟨e0, e1⟩ := idx_mu t
  refine ⟨t, flush1_10 t, ?_⟩
  rw [mem_blk_mu]
  intro a
  have ht : t.val = (i 0).val / 10000 := rfl
  match a with
  | ⟨0, _⟩ => show win1_10.index t (0 : Fin 2) * 10000 ≤ (i 0).val ∧ (i 0).val < win1_10.index t (0 : Fin 2) * 10000 + 10000; rw [e0, ht]; omega
  | ⟨1, _⟩ => show win1_10.index t (1 : Fin 2) * 16 ≤ (i 1).val ∧ (i 1).val < win1_10.index t (1 : Fin 2) * 16 + 16; rw [e1]; omega

theorem cover_ls (i : S100000x16.Idx) : ∃ t : Fin cfg1.N, (cfg1.win 11).flush t = true ∧ i ∈ ((cfg1.win 11).blk t).view.set := by
  have hi0 : (i 0).val < 100000 := (i 0).isLt
  have hi1 : (i 1).val < 16 := (i 1).isLt
  let t : Fin cfg1.N := ⟨(i 0).val / 10000, by rw [show cfg1.N = 10 from N_1]; omega⟩
  obtain ⟨e0, e1⟩ := idx_ls t
  refine ⟨t, flush1_11 t, ?_⟩
  rw [mem_blk_ls]
  intro a
  have ht : t.val = (i 0).val / 10000 := rfl
  match a with
  | ⟨0, _⟩ => show win1_11.index t (0 : Fin 2) * 10000 ≤ (i 0).val ∧ (i 0).val < win1_11.index t (0 : Fin 2) * 10000 + 10000; rw [e0, ht]; omega
  | ⟨1, _⟩ => show win1_11.index t (1 : Fin 2) * 16 ≤ (i 1).val ∧ (i 1).val < win1_11.index t (1 : Fin 2) * 16 + 16; rw [e1]; omega

/-- The mean result array after the region. -/
theorem final_mu (c : Dev nD) : (dat1 V c).arrAt 10 cfg1.N = Mu V c :=
  (dat1 V c).arrAt_eq_of_cover 10 (Mu V c) (fun t _ => flushed_mu V c t) cover_mu

/-- The log-deviation result array after the region. -/
theorem final_ls (c : Dev nD) : (dat1 V c).arrAt 11 cfg1.N = Ls V c :=
  (dat1 V c).arrAt_eq_of_cover 11 (Ls V c) (fun t _ => flushed_ls V c t) cover_ls

end Cert.KernelIdeal.Layer23

end
-- ==== Proof.HostChains.lean ====
/-
  The neighbour aggregation both programs run on the host, as one function of a node array and the edge list.

  The edge list holds a source row and a destination row. A negative source index is wrapped by adding the node
  count, as jnp's indexing does; the source rows of the node array are gathered, and scattered with addition into a
  zero array at the destination rows: entry (i, ·) of the result is the sum of the node rows of i's in-neighbours.
  Nothing below opens the gather or the scatter: both programs apply this same function, so the proof only needs it
  to BE the same function on both sides.
-/
import proofs.«177043_j32633161515327_1_alg».proof.Proof.Gen.KernelIdeal
import Idealize.ShloMosaic.PureOps.Ideal

noncomputable section

open Idealize.ShloMosaic

namespace Cert.KernelIdeal.Agg

open Cert.KernelIdeal Cert.KernelIdeal.Gen

/-- Each edge's source row as a column of indices, negative ones wrapped. -/
def src (E : (⟨S2x1600000, .i32⟩ : BufTy).Contents (Elt Ideal)) : (⟨S1600000x1, .i32⟩ : BufTy).Contents (Elt Ideal) :=
  broadcastInDim S1600000x1 ![0] bcast_S1600000_S1600000x1_0
    (select (cmpi .slt (shapeCast _ (extractStridedSlice S1x1600000 ![0, 0] E slices_S2x1600000_S1x1600000_0_0) shapeCasts_S1x1600000_S1600000)
        (broadcastInDim S1600000 ![] bcast_S_S1600000 (constantI S_ 32 0#32)))
      (addi (shapeCast _ (extractStridedSlice S1x1600000 ![0, 0] E slices_S2x1600000_S1x1600000_0_0) shapeCasts_S1x1600000_S1600000)
        (broadcastInDim S1600000 ![] bcast_S_S1600000 (constantI S_ 32 100000#32)))
      (shapeCast _ (extractStridedSlice S1x1600000 ![0, 0] E slices_S2x1600000_S1x1600000_0_0) shapeCasts_S1x1600000_S1600000))

/-- Each edge's destination row as a column of indices. -/
def dst (E : (⟨S2x1600000, .i32⟩ : BufTy).Contents (Elt Ideal)) : (⟨S1600000x1, .i32⟩ : BufTy).Contents (Elt Ideal) :=
  broadcastInDim S1600000x1 ![0] bcast_S1600000_S1600000x1_0
    (shapeCast _ (extractStridedSlice S1x1600000 ![1, 0] E slices_S2x1600000_S1x1600000_1_0) shapeCasts_S1x1600000_S1600000)

/-- The in-neighbour sums of a 64-wide node array. -/
def agg64 (X : (⟨S100000x64, .f32⟩ : BufTy).Contents (Elt Ideal)) (E : (⟨S2x1600000, .i32⟩ : BufTy).Contents (Elt Ideal)) :
    (⟨S100000x64, .f32⟩ : BufTy).Contents (Elt Ideal) :=
  Host.scatterAdd (F := Ideal) scatter_S100000x64_S1600000x1_S1600000x64_1_0_0_1
    (broadcastInDim S100000x64 ![] bcast_S_S100000x64 (constant (F := Ideal) S_ .f32 0x00000000#32)) (dst E)
    (Host.gather gather_S100000x64_S1600000x1_S1600000x64_1_0_n_n_0_1_164 X (src E))

/-- The in-neighbour sums of a 16-wide node array. -/
def agg16 (X : (⟨S100000x16, .f32⟩ : BufTy).Contents (Elt Ideal)) (E : (⟨S2x1600000, .i32⟩ : BufTy).Contents (Elt Ideal)) :
    (⟨S100000x16, .f32⟩ : BufTy).Contents (Elt Ideal) :=
  Host.scatterAdd (F := Ideal) scatter_S100000x16_S1600000x1_S1600000x16_1_0_0_1
    (broadcastInDim S100000x16 ![] bcast_S_S100000x16 (constant (F := Ideal) S_ .f32 0x00000000#32)) (dst E)
    (Host.gather gather_S100000x16_S1600000x1_S1600000x16_1_0_n_n_0_1_116 X (src E))

end Cert.KernelIdeal.Agg

end
-- ==== Proof.Fold.lean ====
/-
  The kernel program's two result arrays as functions of the launch memory.

  @main is: host operations (the first aggregation, the biases reshaped to rows), the first pallas_call, host
  operations again (the second aggregation, of the first call's result; four more bias rows), the second pallas_call.
  Reading each region's entry contents through the host stretch before it, and the first region's result through its
  blocks (`Layer1.final`), the hidden features are

      Hk = relu (layer (x, agg x))          (layer 1's weights and biases)

  and the two results are `layer (Hk, agg Hk)` with the mean branch's and the log-deviation branch's weights:
  `Mu`, `Ls`. A bias reshaped [b] → [1, b] is the one-row array `row32` / `row16` of the bias, whose entry (0, k) is the bias at k.
-/
import proofs.«177043_j32633161515327_1_alg».proof.Proof.Gen.KernelIdeal.Frame
import proofs.«177043_j32633161515327_1_alg».proof.Proof.Region0
import proofs.«177043_j32633161515327_1_alg».proof.Proof.Region1
import proofs.«177043_j32633161515327_1_alg».proof.Proof.HostChains
import Idealize.ShloMosaic.Lib.StableHlo.Run
import Idealize.ShloMosaic.Lib.ValueLayout

set_option maxRecDepth 16384

noncomputable section

open Idealize.ShloMosaic Idealize.ShloMosaic.TcCoe Idealize.ShloMosaic.ValueIdx Idealize.SL.Sem

namespace Cert.KernelIdeal.Fold

open Cert.KernelIdeal Cert.KernelIdeal.Gen

variable (m : (ℓ : Loc nD τ sig) → Buf (Elt Ideal) ℓ) (ρ : Dev nD → PrngReg)

/-! ## The closed forms -/

/-- The hidden features after the first layer and its ReLU. -/
def Hk (c : Dev nD) : S100000x16.Idx → EReal := fun i =>
  max (Spec.layerArr (m ((c : Thread nD τ).loc main_arg0)) (Agg.agg64 (m ((c : Thread nD τ).loc main_arg0)) (m ((c : Thread nD τ).loc main_arg1)))
    (m ((c : Thread nD τ).loc main_arg2)) (fun k => (m ((c : Thread nD τ).loc main_arg3) : S32.Idx → EReal) (ix1 k))
    (m ((c : Thread nD τ).loc main_arg4)) (fun j => (m ((c : Thread nD τ).loc main_arg5) : S16.Idx → EReal) (ix1 j)) (i 0) (i 1)) Spec.zero

/-- The mean branch's result. -/
def Mu (c : Dev nD) : S100000x16.Idx → EReal := fun i =>
  Spec.layerArr (Hk m c) (Agg.agg16 (Hk m c) (m ((c : Thread nD τ).loc main_arg1)))
    (m ((c : Thread nD τ).loc main_arg6)) (fun k => (m ((c : Thread nD τ).loc main_arg7) : S32.Idx → EReal) (ix1 k))
    (m ((c : Thread nD τ).loc main_arg8)) (fun j => (m ((c : Thread nD τ).loc main_arg9) : S16.Idx → EReal) (ix1 j)) (i 0) (i 1)

/-- The log-deviation branch's result. -/
def Ls (c : Dev nD) : S100000x16.Idx → EReal := fun i =>
  Spec.layerArr (Hk m c) (Agg.agg16 (Hk m c) (m ((c : Thread nD τ).loc main_arg1)))
    (m ((c : Thread nD τ).loc main_arg10)) (fun k => (m ((c : Thread nD τ).loc main_arg11) : S32.Idx → EReal) (ix1 k))
    (m ((c : Thread nD τ).loc main_arg12)) (fun j => (m ((c : Thread nD τ).loc main_arg13) : S16.Idx → EReal) (ix1 j)) (i 0) (i 1)

/-! ## A bias as the one-row array the kernels stage -/

/-- A 32-vector as a [1, 32] row: entry (0, k) is entry k. -/
def row32 (b : S32.Idx → EReal) : S1x32.Idx → EReal := fun y => b (ix1 ⟨(y 1).val, (y 1).isLt⟩)
/-- A 16-vector as a [1, 16] row. -/
def row16 (b : S16.Idx → EReal) : S1x16.Idx → EReal := fun y => b (ix1 ⟨(y 1).val, (y 1).isLt⟩)

/-- Reshaping [32] → [1, 32] gives that row. -/
theorem cast_row32 (b : S32.Idx → EReal) : shapeCast S1x32 b shapeCasts_S32_S1x32 = row32 b := by
  funext y
  obtain ⟨u, k, rfl⟩ : ∃ (u : Fin 1) (k : Fin 32), y = ix2 u k := ⟨y 0, y 1, eq_ix2 y⟩
  exact shapeCast_a_1a_apply b shapeCasts_S32_S1x32 u k
theorem cast_row16 (b : S16.Idx → EReal) : shapeCast S1x16 b shapeCasts_S16_S1x16 = row16 b := by
  funext y
  obtain ⟨u, k, rfl⟩ : ∃ (u : Fin 1) (k : Fin 16), y = ix2 u k := ⟨y 0, y 1, eq_ix2 y⟩
  exact shapeCast_a_1a_apply b shapeCasts_S16_S1x16 u k

/-! ## The first region's entry contents: the launch memory through the first host stretch -/

theorem V1_arg0 (c : Dev nD) : V1 m ρ c main_arg0 = m ((c : Thread nD τ).loc main_arg0) := by
  show StableHlo.after hostOps0 (W0 m ρ c) (Proc.devRef .tc main_arg0) = _
  after_results
theorem V1_arg2 (c : Dev nD) : V1 m ρ c main_arg2 = m ((c : Thread nD τ).loc main_arg2) := by
  show StableHlo.after hostOps0 (W0 m ρ c) (Proc.devRef .tc main_arg2) = _
  after_results
theorem V1_arg4 (c : Dev nD) : V1 m ρ c main_arg4 = m ((c : Thread nD τ).loc main_arg4) := by
  show StableHlo.after hostOps0 (W0 m ρ c) (Proc.devRef .tc main_arg4) = _
  after_results
theorem V1_agg (c : Dev nD) :
    V1 m ρ c main_v13 = Agg.agg64 (m ((c : Thread nD τ).loc main_arg0)) (m ((c : Thread nD τ).loc main_arg1)) := by
  show StableHlo.after hostOps0 (W0 m ρ c) (Proc.devRef .tc main_v13) = _
  after_results
  unfold Agg.agg64 Agg.src Agg.dst
  rfl
theorem V1_b1 (c : Dev nD) : V1 m ρ c main_v14 = row32 (m ((c : Thread nD τ).loc main_arg3)) := by
  show StableHlo.after hostOps0 (W0 m ρ c) (Proc.devRef .tc main_v14) = _
  after_results
  exact cast_row32 (m ((c : Thread nD τ).loc main_arg3))
theorem V1_b2 (c : Dev nD) : V1 m ρ c main_v15 = row16 (m ((c : Thread nD τ).loc main_arg5)) := by
  show StableHlo.after hostOps0 (W0 m ρ c) (Proc.devRef .tc main_v15) = _
  after_results
  exact cast_row16 (m ((c : Thread nD τ).loc main_arg5))

/-! ## Between the regions: what the second host stretch finds -/

/-- A buffer the first region does not touch and the first stretch does not write is as launched. -/
theorem W2_arg1_rows (c : Dev nD) :
    W2 m ρ c (Proc.devRef .tc main_v1)
        = shapeCast _ (extractStridedSlice S1x1600000 ![0, 0] (m ((c : Thread nD τ).loc main_arg1)) slices_S2x1600000_S1x1600000_0_0) shapeCasts_S1x1600000_S1600000
    ∧ W2 m ρ c (Proc.devRef .tc main_v3)
        = shapeCast _ (extractStridedSlice S1x1600000 ![1, 0] (m ((c : Thread nD τ).loc main_arg1)) slices_S2x1600000_S1x1600000_1_0) shapeCasts_S1x1600000_S1600000 := by
  constructor
  · rw [W2_of_ne m ρ c main_v1 (by decide)]
    show StableHlo.after hostOps0 (W0 m ρ c) (Proc.devRef .tc main_v1) = _
    after_results
    rfl
  · rw [W2_of_ne m ρ c main_v3 (by decide)]
    show StableHlo.after hostOps0 (W0 m ρ c) (Proc.devRef .tc main_v3) = _
    after_results
    rfl

theorem W2_arg (c : Dev nD) :
    W2 m ρ c (Proc.devRef .tc main_arg6) = m ((c : Thread nD τ).loc main_arg6)
    ∧ W2 m ρ c (Proc.devRef .tc main_arg7) = m ((c : Thread nD τ).loc main_arg7)
    ∧ W2 m ρ c (Proc.devRef .tc main_arg8) = m ((c : Thread nD τ).loc main_arg8)
    ∧ W2 m ρ c (Proc.devRef .tc main_arg9) = m ((c : Thread nD τ).loc main_arg9)
    ∧ W2 m ρ c (Proc.devRef .tc main_arg10) = m ((c : Thread nD τ).loc main_arg10)
    ∧ W2 m ρ c (Proc.devRef .tc main_arg11) = m ((c : Thread nD τ).loc main_arg11)
    ∧ W2 m ρ c (Proc.devRef .tc main_arg12) = m ((c : Thread nD τ).loc main_arg12)
    ∧ W2 m ρ c (Proc.devRef .tc main_arg13) = m ((c : Thread nD τ).loc main_arg13) := by
  refine ⟨?_, ?_, ?_, ?_, ?_, ?_, ?_, ?_⟩
  · rw [W2_of_ne m ρ c main_arg6 (by decide)]
    show StableHlo.after hostOps0 (W0 m ρ c) (Proc.devRef .tc main_arg6) = _
    after_results
  · rw [W2_of_ne m ρ c main_arg7 (by decide)]
    show StableHlo.after hostOps0 (W0 m ρ c) (Proc.devRef .tc main_arg7) = _
    after_results
  · rw [W2_of_ne m ρ c main_arg8 (by decide)]
    show StableHlo.after hostOps0 (W0 m ρ c) (Proc.devRef .tc main_arg8) = _
    after_results
  · rw [W2_of_ne m ρ c main_arg9 (by decide)]
    show StableHlo.after hostOps0 (W0 m ρ c) (Proc.devRef .tc main_arg9) = _
    after_results
  · rw [W2_of_ne m ρ c main_arg10 (by decide)]
    show StableHlo.after hostOps0 (W0 m ρ c) (Proc.devRef .tc main_arg10) = _
    after_results
  · rw [W2_of_ne m ρ c main_arg11 (by decide)]
    show StableHlo.after hostOps0 (W0 m ρ c) (Proc.devRef .tc main_arg11) = _
    after_results
  · rw [W2_of_ne m ρ c main_arg12 (by decide)]
    show StableHlo.after hostOps0 (W0 m ρ c) (Proc.devRef .tc main_arg12) = _
    after_results
  · rw [W2_of_ne m ρ c main_arg13 (by decide)]
    show StableHlo.after hostOps0 (W0 m ρ c) (Proc.devRef .tc main_arg13) = _
    after_results

/-- The first region's result array is the hidden features. -/
theorem W2_hidden (c : Dev nD) : W2 m ρ c (Proc.devRef .tc main_v16) = Hk m c := by
  refine (W2_arr m ρ c 6).trans ((Layer1.final (V1 m ρ) c).trans ?_)
  unfold Layer1.H Hk
  rw [V1_arg0, V1_agg, V1_arg2, V1_b1, V1_arg4, V1_b2]
  rfl

/-! ## The second region's entry contents -/

theorem V3_hidden (c : Dev nD) : V3 m ρ c main_v16 = Hk m c := by
  show StableHlo.after hostOps1 (W2 m ρ c) (Proc.devRef .tc main_v16) = _
  after_results
  exact W2_hidden m ρ c

theorem V3_agg (c : Dev nD) : V3 m ρ c main_v26 = Agg.agg16 (Hk m c) (m ((c : Thread nD τ).loc main_arg1)) := by
  show StableHlo.after hostOps1 (W2 m ρ c) (Proc.devRef .tc main_v26) = _
  after_results
  rw [W2_hidden, (W2_arg1_rows m ρ c).1, (W2_arg1_rows m ρ c).2]
  unfold Agg.agg16 Agg.src Agg.dst
  rfl

theorem V3_w (c : Dev nD) :
    V3 m ρ c main_arg6 = m ((c : Thread nD τ).loc main_arg6) ∧ V3 m ρ c main_arg8 = m ((c : Thread nD τ).loc main_arg8)
    ∧ V3 m ρ c main_arg10 = m ((c : Thread nD τ).loc main_arg10) ∧ V3 m ρ c main_arg12 = m ((c : Thread nD τ).loc main_arg12) := by
  obtain ⟨h6, -, h8, -, h10, -, h12, -⟩ := W2_arg m ρ c
  refine ⟨?_, ?_, ?_, ?_⟩
  · show StableHlo.after hostOps1 (W2 m ρ c) (Proc.devRef .tc main_arg6) = _
    after_results
    exact h6
  · show StableHlo.after hostOps1 (W2 m ρ c) (Proc.devRef .tc main_arg8) = _
    after_results
    exact h8
  · show StableHlo.after hostOps1 (W2 m ρ c) (Proc.devRef .tc main_arg10) = _
    after_results
    exact h10
  · show StableHlo.after hostOps1 (W2 m ρ c) (Proc.devRef .tc main_arg12) = _
    after_results
    exact h12

theorem V3_b (c : Dev nD) :
    V3 m ρ c main_v27 = row32 (m ((c : Thread nD τ).loc main_arg7))
    ∧ V3 m ρ c main_v28 = row16 (m ((c : Thread nD τ).loc main_arg9))
    ∧ V3 m ρ c main_v29 = row32 (m ((c : Thread nD τ).loc main_arg11))
    ∧ V3 m ρ c main_v30 = row16 (m ((c : Thread nD τ).loc main_arg13)) := by
  obtain ⟨-, h7, -, h9, -, h11, -, h13⟩ := W2_arg m ρ c
  refine ⟨?_, ?_, ?_, ?_⟩
  · show StableHlo.after hostOps1 (W2 m ρ c) (Proc.devRef .tc main_v27) = _
    after_results
    rw [h7]
    exact cast_row32 (m ((c : Thread nD τ).loc main_arg7))
  · show StableHlo.after hostOps1 (W2 m ρ c) (Proc.devRef .tc main_v28) = _
    after_results
    rw [h9]
    exact cast_row16 (m ((c : Thread nD τ).loc main_arg9))
  · show StableHlo.after hostOps1 (W2 m ρ c) (Proc.devRef .tc main_v29) = _
    after_results
    rw [h11]
    exact cast_row32 (m ((c : Thread nD τ).loc main_arg11))
  · show StableHlo.after hostOps1 (W2 m ρ c) (Proc.devRef .tc main_v30) = _
    after_results
    rw [h13]
    exact cast_row16 (m ((c : Thread nD τ).loc main_arg13))

/-! ## The two result arrays at the last boundary -/

theorem out_mu (c : Dev nD) : W4 m ρ c (Proc.devRef .tc main_v31_0) = Mu m c := by
  refine (W4_arr m ρ c 10).trans ((Layer23.final_mu (V3 m ρ) c).trans ?_)
  obtain ⟨h6, h8, -, -⟩ := V3_w m ρ c
  obtain ⟨h27, h28, -, -⟩ := V3_b m ρ c
  unfold Layer23.Mu Mu
  rw [V3_hidden, V3_agg, h6, h8, h27, h28]
  rfl

theorem out_ls (c : Dev nD) : W4 m ρ c (Proc.devRef .tc main_v31_1) = Ls m c := by
  refine (W4_arr m ρ c 11).trans ((Layer23.final_ls (V3 m ρ) c).trans ?_)
  obtain ⟨-, -, h10, h12⟩ := V3_w m ρ c
  obtain ⟨-, -, h29, h30⟩ := V3_b m ρ c
  unfold Layer23.Ls Ls
  rw [V3_hidden, V3_agg, h10, h12, h29, h30]
  rfl

end Cert.KernelIdeal.Fold

end
-- ==== Proof.RefValue.lean ====
/-
  The reference program's stages as the same functions the kernel's arrays are.

  Two things are shown of the reference's generated stage functions. Its three neighbour aggregations are the one
  aggregation function of the kernel program (`Agg.agg64`, `Agg.agg16`): the same slices of the edge list, the same
  index wrap, the same gather and scatter, operation for operation. And each of its three MLPs, read at an entry
  through the generated read-at-an-index lemmas, is `Spec.layerArr`: the `dot_general`s are sums over the contracted
  axis, the bias broadcast [b] → [1, b] → [n, b] read at (r, k) is the bias at k, and the ReLU's zero is the zero word.
-/
import proofs.«177043_j32633161515327_1_alg».proof.Proof.Gen.ReferenceIdeal.Read
import proofs.«177043_j32633161515327_1_alg».proof.Proof.Layer
import proofs.«177043_j32633161515327_1_alg».proof.Proof.HostChains
import Idealize.ShloMosaic.Lib.ValueIdx

noncomputable section

open Idealize.ShloMosaic Idealize.ShloMosaic.ValueIdx
open scoped BigOperators

namespace Cert.ReferenceIdeal.Hand

open Cert.ReferenceIdeal Cert.ReferenceIdeal.Gen Cert.ReferenceIdeal.Read

/-! ## The aggregations -/

/-- The first aggregation, of the input features. -/
theorem agg_x (x0 : (⟨S100000x64, .f32⟩ : BufTy).Contents (Elt Ideal)) (x1 : (⟨S2x1600000, .i32⟩ : BufTy).Contents (Elt Ideal)) :
    val_main_v13 (F := Ideal) x0 x1 = Cert.KernelIdeal.Agg.agg64 x0 x1 := by
  unfold val_main_v13 val_main_v12 val_main_v11 val_main_v10 val_main_v9 val_main_v8 val_main_v7 val_main_v6 val_main_v5 val_main_v4
    val_main_v3 val_main_v2 val_main_v1 val_main_v0 val_main_c val_main_c_0 val_main_cst
    Cert.KernelIdeal.Agg.agg64 Cert.KernelIdeal.Agg.src Cert.KernelIdeal.Agg.dst
  rfl

/-- The mean branch's aggregation, of the hidden features. -/
theorem agg_mu (x0 : (⟨S100000x64, .f32⟩ : BufTy).Contents (Elt Ideal)) (x1 : (⟨S2x1600000, .i32⟩ : BufTy).Contents (Elt Ideal)) (x2 : (⟨S64x32, .f32⟩ : BufTy).Contents (Elt Ideal)) (x3 : (⟨S32, .f32⟩ : BufTy).Contents (Elt Ideal)) (x4 : (⟨S32x16, .f32⟩ : BufTy).Contents (Elt Ideal)) (x5 : (⟨S16, .f32⟩ : BufTy).Contents (Elt Ideal)) :
    val_main_v40 (F := Ideal) x0 x1 x2 x3 x4 x5 = Cert.KernelIdeal.Agg.agg16 (val_main_v26 (F := Ideal) x0 x1 x2 x3 x4 x5) x1 := by
  unfold val_main_v40 val_main_v39 val_main_v38 val_main_v37 val_main_v36 val_main_v35 val_main_v34 val_main_v33 val_main_v32 val_main_v31
    val_main_v30 val_main_v29 val_main_v28 val_main_v27 val_main_c_3 val_main_c_4 val_main_cst_5
    Cert.KernelIdeal.Agg.agg16 Cert.KernelIdeal.Agg.src Cert.KernelIdeal.Agg.dst
  rfl

/-- The log-deviation branch's aggregation: the same function of the same hidden features. -/
theorem agg_ls (x0 : (⟨S100000x64, .f32⟩ : BufTy).Contents (Elt Ideal)) (x1 : (⟨S2x1600000, .i32⟩ : BufTy).Contents (Elt Ideal)) (x2 : (⟨S64x32, .f32⟩ : BufTy).Contents (Elt Ideal)) (x3 : (⟨S32, .f32⟩ : BufTy).Contents (Elt Ideal)) (x4 : (⟨S32x16, .f32⟩ : BufTy).Contents (Elt Ideal)) (x5 : (⟨S16, .f32⟩ : BufTy).Contents (Elt Ideal)) :
    val_main_v65 (F := Ideal) x0 x1 x2 x3 x4 x5 = Cert.KernelIdeal.Agg.agg16 (val_main_v26 (F := Ideal) x0 x1 x2 x3 x4 x5) x1 := by
  unfold val_main_v65 val_main_v64 val_main_v63 val_main_v62 val_main_v61 val_main_v60 val_main_v59 val_main_v58 val_main_v57 val_main_v56
    val_main_v55 val_main_v54 val_main_v53 val_main_v52 val_main_c_7 val_main_c_8 val_main_cst_9
    Cert.KernelIdeal.Agg.agg16 Cert.KernelIdeal.Agg.src Cert.KernelIdeal.Agg.dst
  rfl

/-! ## The index maps of the generated read lemmas, at an entry given by its coordinates -/

theorem l15 (r : Fin 100000) (k : Fin 32) (l : Fin 64) : lidx_main_v15 (ix2 r k) l = ix2 r l := funext fun a => by match a with | ⟨0, _⟩ => rfl | ⟨1, _⟩ => rfl
theorem r15 (r : Fin 100000) (k : Fin 32) (l : Fin 64) : ridx_main_v15 (ix2 r k) l = ix2 l k := funext fun a => by match a with | ⟨0, _⟩ => rfl | ⟨1, _⟩ => rfl
theorem l21 (r : Fin 100000) (j : Fin 16) (k : Fin 32) : lidx_main_v21 (ix2 r j) k = ix2 r k := funext fun a => by match a with | ⟨0, _⟩ => rfl | ⟨1, _⟩ => rfl
theorem r21 (r : Fin 100000) (j : Fin 16) (k : Fin 32) : ridx_main_v21 (ix2 r j) k = ix2 k j := funext fun a => by match a with | ⟨0, _⟩ => rfl | ⟨1, _⟩ => rfl
theorem b17 (r : Fin 100000) (k : Fin 32) : idx_main_v16 (idx_main_v17 (ix2 r k)) = ix1 k := funext fun a => by match a with | ⟨0, _⟩ => rfl
theorem b23 (r : Fin 100000) (j : Fin 16) : idx_main_v22 (idx_main_v23 (ix2 r j)) = ix1 j := funext fun a => by match a with | ⟨0, _⟩ => rfl

theorem l42 (r : Fin 100000) (k : Fin 32) (l : Fin 16) : lidx_main_v42 (ix2 r k) l = ix2 r l := funext fun a => by match a with | ⟨0, _⟩ => rfl | ⟨1, _⟩ => rfl
theorem r42 (r : Fin 100000) (k : Fin 32) (l : Fin 16) : ridx_main_v42 (ix2 r k) l = ix2 l k := funext fun a => by match a with | ⟨0, _⟩ => rfl | ⟨1, _⟩ => rfl
theorem l48 (r : Fin 100000) (j : Fin 16) (k : Fin 32) : lidx_main_v48 (ix2 r j) k = ix2 r k := funext fun a => by match a with | ⟨0, _⟩ => rfl | ⟨1, _⟩ => rfl
theorem r48 (r : Fin 100000) (j : Fin 16) (k : Fin 32) : ridx_main_v48 (ix2 r j) k = ix2 k j := funext fun a => by match a with | ⟨0, _⟩ => rfl | ⟨1, _⟩ => rfl
theorem b44 (r : Fin 100000) (k : Fin 32) : idx_main_v43 (idx_main_v44 (ix2 r k)) = ix1 k := funext fun a => by match a with | ⟨0, _⟩ => rfl
theorem b50 (r : Fin 100000) (j : Fin 16) : idx_main_v49 (idx_main_v50 (ix2 r j)) = ix1 j := funext fun a => by match a with | ⟨0, _⟩ => rfl

theorem l67 (r : Fin 100000) (k : Fin 32) (l : Fin 16) : lidx_main_v67 (ix2 r k) l = ix2 r l := funext fun a => by match a with | ⟨0, _⟩ => rfl | ⟨1, _⟩ => rfl
theorem r67 (r : Fin 100000) (k : Fin 32) (l : Fin 16) : ridx_main_v67 (ix2 r k) l = ix2 l k := funext fun a => by match a with | ⟨0, _⟩ => rfl | ⟨1, _⟩ => rfl
theorem l73 (r : Fin 100000) (j : Fin 16) (k : Fin 32) : lidx_main_v73 (ix2 r j) k = ix2 r k := funext fun a => by match a with | ⟨0, _⟩ => rfl | ⟨1, _⟩ => rfl
theorem r73 (r : Fin 100000) (j : Fin 16) (k : Fin 32) : ridx_main_v73 (ix2 r j) k = ix2 k j := funext fun a => by match a with | ⟨0, _⟩ => rfl | ⟨1, _⟩ => rfl
theorem b69 (r : Fin 100000) (k : Fin 32) : idx_main_v68 (idx_main_v69 (ix2 r k)) = ix1 k := funext fun a => by match a with | ⟨0, _⟩ => rfl
theorem b75 (r : Fin 100000) (j : Fin 16) : idx_main_v74 (idx_main_v75 (ix2 r j)) = ix1 j := funext fun a => by match a with | ⟨0, _⟩ => rfl

/-! ## The three MLPs -/

/-- The hidden features: the ReLU of layer 1 of the input features and their aggregation. -/
theorem hidden_eq (x0 : (⟨S100000x64, .f32⟩ : BufTy).Contents (Elt Ideal)) (x1 : (⟨S2x1600000, .i32⟩ : BufTy).Contents (Elt Ideal)) (x2 : (⟨S64x32, .f32⟩ : BufTy).Contents (Elt Ideal)) (x3 : (⟨S32, .f32⟩ : BufTy).Contents (Elt Ideal)) (x4 : (⟨S32x16, .f32⟩ : BufTy).Contents (Elt Ideal)) (x5 : (⟨S16, .f32⟩ : BufTy).Contents (Elt Ideal)) :
    val_main_v26 (F := Ideal) x0 x1 x2 x3 x4 x5 = fun i =>
      max (Spec.layerArr x0 (val_main_v13 (F := Ideal) x0 x1) x2 (fun k => x3 (ix1 k)) x4 (fun j => x5 (ix1 j)) (i 0) (i 1)) Spec.zero := by
  funext i
  obtain ⟨r, j, rfl⟩ : ∃ (r : Fin 100000) (j : Fin 16), i = ix2 r j := ⟨i 0, i 1, eq_ix2 i⟩
  simp only [val_main_v26_apply, val_main_v25_apply, val_main_cst_2_apply, val_main_v24_apply, val_main_v23_apply, val_main_v22_apply,
    val_main_v21_apply, val_main_v20_apply, val_main_v19_apply, val_main_cst_1_apply, val_main_v18_apply, val_main_v17_apply, val_main_v16_apply,
    val_main_v15_apply, val_main_v14_apply, l21, r21, b23, l15, r15, b17,
    Ideal.addf_def, Ideal.maximumf_def, Ideal.ofBits_def, Spec.layerArr, Spec.mlpRow, Spec.zero]

/-- The mean result: the mean branch's layer of the hidden features and their aggregation. -/
theorem mu_eq (x0 : (⟨S100000x64, .f32⟩ : BufTy).Contents (Elt Ideal)) (x1 : (⟨S2x1600000, .i32⟩ : BufTy).Contents (Elt Ideal)) (x2 : (⟨S64x32, .f32⟩ : BufTy).Contents (Elt Ideal)) (x3 : (⟨S32, .f32⟩ : BufTy).Contents (Elt Ideal)) (x4 : (⟨S32x16, .f32⟩ : BufTy).Contents (Elt Ideal)) (x5 : (⟨S16, .f32⟩ : BufTy).Contents (Elt Ideal)) (x6 : (⟨S16x32, .f32⟩ : BufTy).Contents (Elt Ideal)) (x7 : (⟨S32, .f32⟩ : BufTy).Contents (Elt Ideal)) (x8 : (⟨S32x16, .f32⟩ : BufTy).Contents (Elt Ideal)) (x9 : (⟨S16, .f32⟩ : BufTy).Contents (Elt Ideal)) :
    val_main_v51 (F := Ideal) x0 x1 x2 x3 x4 x5 x6 x7 x8 x9 = fun i =>
      Spec.layerArr (val_main_v26 (F := Ideal) x0 x1 x2 x3 x4 x5) (val_main_v40 (F := Ideal) x0 x1 x2 x3 x4 x5) x6 (fun k => x7 (ix1 k)) x8 (fun j => x9 (ix1 j)) (i 0) (i 1) := by
  funext i
  obtain ⟨r, j, rfl⟩ : ∃ (r : Fin 100000) (j : Fin 16), i = ix2 r j := ⟨i 0, i 1, eq_ix2 i⟩
  simp only [val_main_v51_apply, val_main_v50_apply, val_main_v49_apply, val_main_v48_apply, val_main_v47_apply, val_main_v46_apply,
    val_main_cst_6_apply, val_main_v45_apply, val_main_v44_apply, val_main_v43_apply, val_main_v42_apply, val_main_v41_apply,
    l48, r48, b50, l42, r42, b44,
    Ideal.addf_def, Ideal.maximumf_def, Ideal.ofBits_def, Spec.layerArr, Spec.mlpRow, Spec.zero]

/-- The log-deviation result: its branch's layer of the same two arrays. -/
theorem ls_eq (x0 : (⟨S100000x64, .f32⟩ : BufTy).Contents (Elt Ideal)) (x1 : (⟨S2x1600000, .i32⟩ : BufTy).Contents (Elt Ideal)) (x2 : (⟨S64x32, .f32⟩ : BufTy).Contents (Elt Ideal)) (x3 : (⟨S32, .f32⟩ : BufTy).Contents (Elt Ideal)) (x4 : (⟨S32x16, .f32⟩ : BufTy).Contents (Elt Ideal)) (x5 : (⟨S16, .f32⟩ : BufTy).Contents (Elt Ideal)) (x10 : (⟨S16x32, .f32⟩ : BufTy).Contents (Elt Ideal)) (x11 : (⟨S32, .f32⟩ : BufTy).Contents (Elt Ideal)) (x12 : (⟨S32x16, .f32⟩ : BufTy).Contents (Elt Ideal)) (x13 : (⟨S16, .f32⟩ : BufTy).Contents (Elt Ideal)) :
    val_main_v76 (F := Ideal) x0 x1 x2 x3 x4 x5 x10 x11 x12 x13 = fun i =>
      Spec.layerArr (val_main_v26 (F := Ideal) x0 x1 x2 x3 x4 x5) (val_main_v65 (F := Ideal) x0 x1 x2 x3 x4 x5) x10 (fun k => x11 (ix1 k)) x12 (fun j => x13 (ix1 j)) (i 0) (i 1) := by
  funext i
  obtain ⟨r, j, rfl⟩ : ∃ (r : Fin 100000) (j : Fin 16), i = ix2 r j := ⟨i 0, i 1, eq_ix2 i⟩
  simp only [val_main_v76_apply, val_main_v75_apply, val_main_v74_apply, val_main_v73_apply, val_main_v72_apply, val_main_v71_apply,
    val_main_cst_10_apply, val_main_v70_apply, val_main_v69_apply, val_main_v68_apply, val_main_v67_apply, val_main_v66_apply,
    l73, r73, b75, l67, r67, b69,
    Ideal.addf_def, Ideal.maximumf_def, Ideal.ofBits_def, Spec.layerArr, Spec.mlpRow, Spec.zero]

end Cert.ReferenceIdeal.Hand

end
-- ==== Proof.lean ====
/-
  A three-layer GIN encoder on a graph of 100000 nodes and 1600000 edges: the kernel program against its jnp reference,
  over the extended reals.

  Both programs compute, for node features x, edge list E and three MLPs (Linear → ReLU → Linear),

      h  = relu (MLP₁ (x + agg x))          agg y = the sum, at each node, of y's rows at the node's in-neighbours
      μ  = MLP_μ (h + agg h)
      ls = MLP_ls (h + agg h)

  The reference does all of it on the host, aggregating h once per branch. The kernel program aggregates on the host
  with the same gather and scatter-add, and runs the MLPs in two pallas_calls over tiles of 10000 node rows: the first
  produces h, the second both μ and ls from one aggregation of h. At the extended reals a cast to bf16 is the identity
  and a product into a zero accumulator is the plain sum over the contracted axis, so on each node row the kernel's
  tile arithmetic is the reference's row of `dot_general`s term for term (`Spec.mlpRow`); the ten tiles of each result
  cover its 100000 rows. No law of the extended reals beyond that reading is used, so the inputs' finiteness is never
  opened.

  The frames are the generated ones (the reference's is its generated run with the results dropped); the ideal pass
  rewrote nothing, so the kernel's idealization claim is `True`.
-/
import proofs.«177043_j32633161515327_1_alg».proof.Defs
import proofs.«177043_j32633161515327_1_alg».proof.Proof.Gen.Kernel
import proofs.«177043_j32633161515327_1_alg».proof.Proof.Gen.Kernel.Skeleton
import proofs.«177043_j32633161515327_1_alg».proof.Proof.Gen.Kernel.Launch
import proofs.«177043_j32633161515327_1_alg».proof.Proof.Gen.Kernel.Points
import proofs.«177043_j32633161515327_1_alg».proof.Proof.Gen.Kernel.Frame
import proofs.«177043_j32633161515327_1_alg».proof.Proof.Gen.KernelIdeal
import proofs.«177043_j32633161515327_1_alg».proof.Proof.Gen.KernelIdeal.Skeleton
import proofs.«177043_j32633161515327_1_alg».proof.Proof.Gen.KernelIdeal.Launch
import proofs.«177043_j32633161515327_1_alg».proof.Proof.Gen.KernelIdeal.Points
import proofs.«177043_j32633161515327_1_alg».proof.Proof.Gen.KernelIdeal.Frame
import proofs.«177043_j32633161515327_1_alg».proof.Proof.Gen.ReferenceIdeal
import proofs.«177043_j32633161515327_1_alg».proof.Proof.Gen.Pre_finite_inputs
import proofs.«177043_j32633161515327_1_alg».proof.Proof.Gen.ReferenceIdeal.Run
import proofs.«177043_j32633161515327_1_alg».proof.Proof.Gen.ReferenceIdeal.Read
import proofs.«177043_j32633161515327_1_alg».proof.Proof.NamedRun
import proofs.«177043_j32633161515327_1_alg».proof.Proof.Fold
import proofs.«177043_j32633161515327_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its generated run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories that agree on the arguments both programs end with the mean result at `Fold.Mu` and the
    log-deviation result at `Fold.Ls` of the kernel's launch memory: the kernel program by its run with the results
    named and the fold through its host stretches and regions; the reference by its generated run, its stages read as
    the same layers of the same aggregations. -/
theorem algebraic : Cert.algebraic_KernelIdeal_ReferenceIdeal := by
  intro m ρ m' ρ' _ hagree
  refine ⟨fun c => Cert.KernelIdeal.Fold.Mu m c, fun c => Cert.KernelIdeal.Fold.Ls m c, ?_, ?_⟩
  · refine (θ_run Cert.KernelIdeal.defs _ _).mono (fun r h c => ?_) (Cert.KernelIdeal.Named.run_named (F := Ideal) m ρ)
    obtain ⟨h0, h1, hargs⟩ := h c
    exact ⟨h0.trans (Cert.KernelIdeal.Fold.out_mu m ρ c), h1.trans (Cert.KernelIdeal.Fold.out_ls m ρ c), hargs⟩
  · refine (θ_run Cert.ReferenceIdeal.defs _ _).mono (fun r h c => ?_) (Cert.ReferenceIdeal.Value.run (F := Ideal) m' ρ')
    obtain ⟨h0, h1, hargs⟩ := h c
    obtain ⟨e0, e1, e2, e3, e4, e5, e6, e7, e8, e9, e10, e11, e12, e13⟩ := hagree c
    refine ⟨h0.trans ?_, h1.trans ?_, hargs⟩
    · rw [Cert.ReferenceIdeal.Read.val_main_v51_eq, Cert.ReferenceIdeal.Hand.mu_eq, Cert.ReferenceIdeal.Hand.agg_mu,
        Cert.ReferenceIdeal.Hand.hidden_eq, Cert.ReferenceIdeal.Hand.agg_x, e0, e1, e2, e3, e4, e5, e6, e7, e8, e9]
      rfl
    · rw [Cert.ReferenceIdeal.Read.val_main_v76_eq, Cert.ReferenceIdeal.Hand.ls_eq, Cert.ReferenceIdeal.Hand.agg_ls,
        Cert.ReferenceIdeal.Hand.hidden_eq, Cert.ReferenceIdeal.Hand.agg_x, e0, e1, e2, e3, e4, e5, e10, e11, e12, e13]
      rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
